-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8 : Shape := ⟨1, ![8]⟩
abbrev S8x2048x4096 : Shape := ⟨3, ![8, 2048, 4096]⟩
abbrev S8x4096x2048 : Shape := ⟨3, ![8, 4096, 2048]⟩
abbrev S8x2048x16 : Shape := ⟨3, ![8, 2048, 16]⟩
abbrev S8x16x4096 : Shape := ⟨3, ![8, 16, 4096]⟩
abbrev S8x4096x16 : Shape := ⟨3, ![8, 4096, 16]⟩
abbrev S8x16x2048 : Shape := ⟨3, ![8, 16, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_
  bcast_S_S8x2048x16 : S_.BroadcastsInDim S8x2048x16 (![] : Fin 0 → Fin S8x2048x16.rank)
  reducesTo_S8x2048x16_S_d0_1_2 : S8x2048x16.ReducesTo [0, 1, 2] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S8x4096x16 : S_.BroadcastsInDim S8x4096x16 (![] : Fin 0 → Fin S8x4096x16.rank)
  reducesTo_S8x4096x16_S_d0_1_2 : S8x4096x16.ReducesTo [0, 1, 2] S_
  bcast_S_S8x16x2048 : S_.BroadcastsInDim S8x16x2048 (![] : Fin 0 → Fin S8x16x2048.rank)
  reducesTo_S8x16x2048_S_d0_1_2 : S8x16x2048.ReducesTo [0, 1, 2] S_

variable [Facts]

def fn_part2 {F : FTy → Type} [FloatOps F] (main_arg8 : FVec F S8x16x4096 .f32) (main_arg9 : FVec F S8x4096x16 .f32) (main_arg10 : FVec F S8x16x2048 .f32) (main_v33 : IVec S_ 1) : IVec S_ 1 :=
  let main_v34 : FVec F S8x16x4096 .f32 := Host.absf main_arg8
  let main_cst_12 : FVec F S_ .f32 := constant S_ .f32 0x7F800000#32
  let main_v35 : FVec F S8x16x4096 .f32 := broadcastInDim S8x16x4096 ![] bcast_S_S8x16x4096 main_cst_12
  let main_v36 : IVec S8x16x4096 1 := cmpf .olt main_v34 main_v35
  let main_c_13 : IVec S_ 1 := constantI S_ 1 1#1
  let main_v37 : IVec S_ 1 := (fun x v => Host.reduce IntOp.andi x v reducesTo_S8x16x4096_S_d0_1_2 h_S_) main_v36 main_c_13
  let main_v38 : IVec S_ 1 := andi main_v33 main_v37
  let main_v39 : FVec F S8x4096x16 .f32 := Host.absf main_arg9
  let main_cst_14 : FVec F S_ .f32 := constant S_ .f32 0x7F800000#32
  let main_v40 : FVec F S8x4096x16 .f32 := broadcastInDim S8x4096x16 ![] bcast_S_S8x4096x16 main_cst_14
  let main_v41 : IVec S8x4096x16 1 := cmpf .olt main_v39 main_v40
  let main_c_15 : IVec S_ 1 := constantI S_ 1 1#1
  let main_v42 : IVec S_ 1 := (fun x v => Host.reduce IntOp.andi x v reducesTo_S8x4096x16_S_d0_1_2 h_S_) main_v41 main_c_15
  let main_v43 : IVec S_ 1 := andi main_v38 main_v42
  let main_v44 : FVec F S8x16x2048 .f32 := Host.absf main_arg10
  let main_cst_16 : FVec F S_ .f32 := constant S_ .f32 0x7F800000#32
  let main_v45 : FVec F S8x16x2048 .f32 := broadcastInDim S8x16x2048 ![] bcast_S_S8x16x2048 main_cst_16
  let main_v46 : IVec S8x16x2048 1 := cmpf .olt main_v44 main_v45
  let main_c_17 : IVec S_ 1 := constantI S_ 1 1#1
  let main_v47 : IVec S_ 1 := (fun x v => Host.reduce IntOp.andi x v reducesTo_S8x16x2048_S_d0_1_2 h_S_) main_v46 main_c_17
  let main_v48 : IVec S_ 1 := andi main_v43 main_v47
  main_v48

def fn_part1 {F : FTy → Type} [FloatOps F] (main_arg5 : FVec F S8x2048x16 .f32) (main_arg6 : FVec F S8x16x4096 .f32) (main_arg7 : FVec F S8x2048x16 .f32) (main_arg8 : FVec F S8x16x4096 .f32) (main_arg9 : FVec F S8x4096x16 .f32) (main_arg10 : FVec F S8x16x2048 .f32) (main_v13 : IVec S_ 1) (main_v16 : IVec S8x4096x2048 1) : IVec S_ 1 :=
  let main_c_5 : IVec S_ 1 := constantI S_ 1 1#1
  let main_v17 : IVec S_ 1 := (fun x v => Host.reduce IntOp.andi x v reducesTo_S8x4096x2048_S_d0_1_2 h_S_) main_v16 main_c_5
  let main_v18 : IVec S_ 1 := andi main_v13 main_v17
  let main_v19 : FVec F S8x2048x16 .f32 := Host.absf main_arg5
  let main_cst_6 : FVec F S_ .f32 := constant S_ .f32 0x7F800000#32
  let main_v20 : FVec F S8x2048x16 .f32 := broadcastInDim S8x2048x16 ![] bcast_S_S8x2048x16 main_cst_6
  let main_v21 : IVec S8x2048x16 1 := cmpf .olt main_v19 main_v20
  let main_c_7 : IVec S_ 1 := constantI S_ 1 1#1
  let main_v22 : IVec S_ 1 := (fun x v => Host.reduce IntOp.andi x v reducesTo_S8x2048x16_S_d0_1_2 h_S_) main_v21 main_c_7
  let main_v23 : IVec S_ 1 := andi main_v18 main_v22
  let main_v24 : FVec F S8x16x4096 .f32 := Host.absf main_arg6
  let main_cst_8 : FVec F S_ .f32 := constant S_ .f32 0x7F800000#32
  let main_v25 : FVec F S8x16x4096 .f32 := broadcastInDim S8x16x4096 ![] bcast_S_S8x16x4096 main_cst_8
  let main_v26 : IVec S8x16x4096 1 := cmpf .olt main_v24 main_v25
  let main_c_9 : IVec S_ 1 := constantI S_ 1 1#1
  let main_v27 : IVec S_ 1 := (fun x v => Host.reduce IntOp.andi x v reducesTo_S8x16x4096_S_d0_1_2 h_S_) main_v26 main_c_9
  let main_v28 : IVec S_ 1 := andi main_v23 main_v27
  let main_v29 : FVec F S8x2048x16 .f32 := Host.absf main_arg7
  let main_cst_10 : FVec F S_ .f32 := constant S_ .f32 0x7F800000#32
  let main_v30 : FVec F S8x2048x16 .f32 := broadcastInDim S8x2048x16 ![] bcast_S_S8x2048x16 main_cst_10
  let main_v31 : IVec S8x2048x16 1 := cmpf .olt main_v29 main_v30
  let main_c_11 : IVec S_ 1 := constantI S_ 1 1#1
  let main_v32 : IVec S_ 1 := (fun x v => Host.reduce IntOp.andi x v reducesTo_S8x2048x16_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S8192x2048 .f32) (main_arg1 : IVec S8 32) (main_arg2 : FVec F S8x2048x4096 .f32) (main_arg3 : FVec F S8x2048x4096 .f32) (main_arg4 : FVec F S8x4096x2048 .f32) (main_arg5 : FVec F S8x2048x16 .f32) (main_arg6 : FVec F S8x16x4096 .f32) (main_arg7 : FVec F S8x2048x16 .f32) (main_arg8 : FVec F S8x16x4096 .f32) (main_arg9 : FVec F S8x4096x16 .f32) (main_arg10 : FVec F S8x16x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x4096 .f32 := Host.absf main_arg2
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x4096 .f32 := Host.absf main_arg3
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  let main_v14 : FVec F S8x4096x2048 .f32 := Host.absf main_arg4
  let main_cst_4 : FVec F S_ .f32 := constant S_ .f32 0x7F800000#32
  let main_v15 : FVec F S8x4096x2048 .f32 := broadcastInDim S8x4096x2048 ![] bcast_S_S8x4096x2048 main_cst_4
  let main_v16 : IVec S8x4096x2048 1 := cmpf .olt main_v14 main_v15
  fn_part1 (F := F) main_arg5 main_arg6 main_arg7 main_arg8 main_arg9 main_arg10 main_v13 main_v16
-- ==== Kernel.lean ====
abbrev S8192x2048 : Shape := ⟨2, ![8192, 2048]⟩
abbrev S8 : Shape := ⟨1, ![8]⟩
abbrev S8x2048x4096 : Shape := ⟨3, ![8, 2048, 4096]⟩
abbrev S8x4096x2048 : Shape := ⟨3, ![8, 4096, 2048]⟩
abbrev S8x2048x16 : Shape := ⟨3, ![8, 2048, 16]⟩
abbrev S8x16x4096 : Shape := ⟨3, ![8, 16, 4096]⟩
abbrev S8x4096x16 : Shape := ⟨3, ![8, 4096, 16]⟩
abbrev S8x16x2048 : Shape := ⟨3, ![8, 16, 2048]⟩
abbrev S8x1024x2048 : Shape := ⟨3, ![8, 1024, 2048]⟩
abbrev S8x1024x4096 : Shape := ⟨3, ![8, 1024, 4096]⟩
abbrev S1x512x2048 : Shape := ⟨3, ![1, 512, 2048]⟩
abbrev S1x2048x2048 : Shape := ⟨3, ![1, 2048, 2048]⟩
abbrev S1x2048x16 : Shape := ⟨3, ![1, 2048, 16]⟩
abbrev S1x16x2048 : Shape := ⟨3, ![1, 16, 2048]⟩
abbrev S512x2048 : Shape := ⟨2, ![512, 2048]⟩
abbrev S2048x2048 : Shape := ⟨2, ![2048, 2048]⟩
abbrev S2048x16 : Shape := ⟨2, ![2048, 16]⟩
abbrev S16x2048 : Shape := ⟨2, ![16, 2048]⟩
abbrev S512x16 : Shape := ⟨2, ![512, 16]⟩
abbrev S1x512x4096 : Shape := ⟨3, ![1, 512, 4096]⟩
abbrev S1x4096x1024 : Shape := ⟨3, ![1, 4096, 1024]⟩
abbrev S1x4096x16 : Shape := ⟨3, ![1, 4096, 16]⟩
abbrev S1x16x1024 : Shape := ⟨3, ![1, 16, 1024]⟩
abbrev S1x512x1024 : Shape := ⟨3, ![1, 512, 1024]⟩
abbrev S512x4096 : Shape := ⟨2, ![512, 4096]⟩
abbrev S4096x1024 : Shape := ⟨2, ![4096, 1024]⟩
abbrev S4096x16 : Shape := ⟨2, ![4096, 16]⟩
abbrev S16x1024 : Shape := ⟨2, ![16, 1024]⟩
abbrev S512x1024 : Shape := ⟨2, ![512, 1024]⟩

abbrev nBuf : Space → Nat
  | .hbm => 25
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S8x2048x4096, .f32⟩
  | .hbm, ⟨3, _⟩ => ⟨S8x2048x4096, .f32⟩
  | .hbm, ⟨4, _⟩ => ⟨S8x4096x2048, .f32⟩
  | .hbm, ⟨5, _⟩ => ⟨S8x2048x16, .f32⟩
  | .hbm, ⟨6, _⟩ => ⟨S8x16x4096, .f32⟩
  | .hbm, ⟨7, _⟩ => ⟨S8x2048x16, .f32⟩
  | .hbm, ⟨8, _⟩ => ⟨S8x16x4096, .f32⟩
  | .hbm, ⟨9, _⟩ => ⟨S8x4096x16, .f32⟩
  | .hbm, ⟨10, _⟩ => ⟨S8x16x2048, .f32⟩
  | .hbm, ⟨11, _⟩ => ⟨S8x1024x2048, .f32⟩
  | .hbm, ⟨12, _⟩ => ⟨S8x1024x2048, .bf16⟩
  | .hbm, ⟨13, _⟩ => ⟨S8x2048x4096, .bf16⟩
  | .hbm, ⟨14, _⟩ => ⟨S8x2048x4096, .bf16⟩
  | .hbm, ⟨15, _⟩ => ⟨S8x4096x2048, .bf16⟩
  | .hbm, ⟨16, _⟩ => ⟨S8x2048x16, .bf16⟩
  | .hbm, ⟨17, _⟩ => ⟨S8x16x4096, .bf16⟩
  | .hbm, ⟨18, _⟩ => ⟨S8x2048x16, .bf16⟩
  | .hbm, ⟨19, _⟩ => ⟨S8x16x4096, .bf16⟩
  | .hbm, ⟨20, _⟩ => ⟨S8x4096x16, .bf16⟩
  | .hbm, ⟨21, _⟩ => ⟨S8x16x2048, .bf16⟩
  | .hbm, ⟨22, _⟩ => ⟨S8x1024x4096, .bf16⟩
  | .hbm, ⟨23, _⟩ => ⟨S8x1024x2048, .f32⟩
  | .hbm, ⟨24, _⟩ => ⟨S8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x2048x16, .bf16⟩
  | .local _ .vmem, ⟨7, _⟩ => ⟨S1x2048x16, .bf16⟩
  | .local _ .vmem, ⟨8, _⟩ => ⟨S1x16x2048, .bf16⟩
  | .local _ .vmem, ⟨9, _⟩ => ⟨S1x16x2048, .bf16⟩
  | .local _ .vmem, ⟨10, _⟩ => ⟨S1x2048x16, .bf16⟩
  | .local _ .vmem, ⟨11, _⟩ => ⟨S1x2048x16, .bf16⟩
  | .local _ .vmem, ⟨12, _⟩ => ⟨S1x16x2048, .bf16⟩
  | .local _ .vmem, ⟨13, _⟩ => ⟨S1x16x2048, .bf16⟩
  | .local _ .vmem, ⟨14, _⟩ => ⟨S1x512x2048, .bf16⟩
  | .local _ .vmem, ⟨15, _⟩ => ⟨S1x512x2048, .bf16⟩
  | .local _ .vmem, ⟨16, _⟩ => ⟨S1x512x4096, .bf16⟩
  | .local _ .vmem, ⟨17, _⟩ => ⟨S1x512x4096, .bf16⟩
  | .local _ .vmem, ⟨18, _⟩ => ⟨S1x4096x1024, .bf16⟩
  | .local _ .vmem, ⟨19, _⟩ => ⟨S1x4096x1024, .bf16⟩
  | .local _ .vmem, ⟨20, _⟩ => ⟨S1x4096x16, .bf16⟩
  | .local _ .vmem, ⟨21, _⟩ => ⟨S1x4096x16, .bf16⟩
  | .local _ .vmem, ⟨22, _⟩ => ⟨S1x16x1024, .bf16⟩
  | .local _ .vmem, ⟨23, _⟩ => ⟨S1x16x1024, .bf16⟩
  | .local _ .vmem, ⟨24, _⟩ => ⟨S1x512x1024, .f32⟩
  | .local _ .vmem, ⟨25, _⟩ => ⟨S1x512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev grid1 : Pipeline.Grid := ⟨3, ![8, 2, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x4096x16 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x16x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  shapeCasts_S8192x2048_S8x1024x2048 : S8192x2048.ShapeCasts S8x1024x2048
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  shapeCasts_S512x2048_S1x512x2048 : S512x2048.ShapeCasts S1x512x2048
  packedbf16_S1x512x2048_S1x512x2048_0_0_0 : (Rect.unit (s := S1x512x2048) ![0, 0, 0] S1x512x2048.size inb_S1x512x2048_S1x512x2048_0_0_0).PackedRows (EltTy.packing .bf16)
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S8x1024x2048_S8192x2048 : S8x1024x2048.ShapeCasts S8192x2048
  dot_S512x2048_S2048x2048_S512x2048_1_0_0_1_n_n_wf : DotDims.WF S512x2048 S2048x2048 S512x2048 [1] [0] [0] [1] [] []
  dot_S512x2048_S2048x16_S512x16_1_0_0_1_n_n_wf : DotDims.WF S512x2048 S2048x16 S512x16 [1] [0] [0] [1] [] []
  dot_S512x16_S16x2048_S512x2048_1_0_0_1_n_n_wf : DotDims.WF S512x16 S16x2048 S512x2048 [1] [0] [0] [1] [] []
  dot_S512x4096_S4096x1024_S512x1024_1_0_0_1_n_n_wf : DotDims.WF S512x4096 S4096x1024 S512x1024 [1] [0] [0] [1] [] []
  dot_S512x4096_S4096x16_S512x16_1_0_0_1_n_n_wf : DotDims.WF S512x4096 S4096x16 S512x16 [1] [0] [0] [1] [] []
  dot_S512x16_S16x1024_S512x1024_1_0_0_1_n_n_wf : DotDims.WF S512x16 S16x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x1024x2048.size a
  hwx0_0 : ∀ i : grid0.Coords, EltTy.bits .bf16 = 32 ∨ (Rect.block (s := S8x1024x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x4096.size a
  hwx0_1 : ∀ i : grid0.Coords, EltTy.bits .bf16 = 32 ∨ (Rect.block (s := S8x2048x4096) S1x2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x2048.size a ≤ S8x2048x4096.size a
  hwx0_2 : ∀ i : grid0.Coords, EltTy.bits .bf16 = 32 ∨ (Rect.block (s := S8x2048x4096) S1x2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x16.size a ≤ S8x2048x16.size a
  hwx0_3 : ∀ i : grid0.Coords, EltTy.bits .bf16 = 32 ∨ (Rect.block (s := S8x2048x16) S1x2048x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x2048.size a ≤ S8x16x4096.size a
  hwx0_4 : ∀ i : grid0.Coords, EltTy.bits .bf16 = 32 ∨ (Rect.block (s := S8x16x4096) S1x16x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x16.size a ≤ S8x2048x16.size a
  hwx0_5 : ∀ i : grid0.Coords, EltTy.bits .bf16 = 32 ∨ (Rect.block (s := S8x2048x16) S1x2048x16.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x2048.size a ≤ S8x16x4096.size a
  hwx0_6 : ∀ i : grid0.Coords, EltTy.bits .bf16 = 32 ∨ (Rect.block (s := S8x16x4096) S1x16x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x2048.size a ≤ S8x1024x4096.size a
  hwx0_7 : ∀ i : grid0.Coords, EltTy.bits .bf16 = 32 ∨ (Rect.block (s := S8x1024x4096) S1x512x2048.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S8x1024x4096.size a
  hwx1_0 : ∀ i : grid1.Coords, EltTy.bits .bf16 = 32 ∨ (Rect.block (s := S8x1024x4096) S1x512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x1024.size a ≤ S8x4096x2048.size a
  hwx1_1 : ∀ i : grid1.Coords, EltTy.bits .bf16 = 32 ∨ (Rect.block (s := S8x4096x2048) S1x4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x16.size a ≤ S8x4096x16.size a
  hwx1_2 : ∀ i : grid1.Coords, EltTy.bits .bf16 = 32 ∨ (Rect.block (s := S8x4096x16) S1x4096x16.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x1024.size a ≤ S8x16x2048.size a
  hwx1_3 : ∀ i : grid1.Coords, EltTy.bits .bf16 = 32 ∨ (Rect.block (s := S8x16x2048) S1x16x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S8x1024x2048.size a
  hwx1_4 : ∀ i : grid1.Coords, EltTy.bits .f32 = 32 ∨ (Rect.block (s := S8x1024x2048) S1x512x1024.size (cc1_transform_4 i) (hinb1_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x16_S512x16_1_0_0_1_n_n : DotDims S512x2048 S2048x16 S512x16 where
  lhsContracting := [1]
  rhsContracting := [0]
  lhsNonContracting := [0]
  rhsNonContracting := [1]
  lhsBatch := []
  rhsBatch := []
  wf := dot_S512x2048_S2048x16_S512x16_1_0_0_1_n_n_wf
def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev win0_0 : Pipeline.Window sig grid0 :=
  Pipeline.Window.ofSpec (Memref.whole main_v1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x16x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x2048x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x16x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v11) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x4096x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x16x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S8 : Shape := ⟨1, ![8]⟩
abbrev S8x2048x4096 : Shape := ⟨3, ![8, 2048, 4096]⟩
abbrev S8x4096x2048 : Shape := ⟨3, ![8, 4096, 2048]⟩
abbrev S8x2048x16 : Shape := ⟨3, ![8, 2048, 16]⟩
abbrev S8x16x4096 : Shape := ⟨3, ![8, 16, 4096]⟩
abbrev S8x4096x16 : Shape := ⟨3, ![8, 4096, 16]⟩
abbrev S8x16x2048 : Shape := ⟨3, ![8, 16, 2048]⟩
abbrev S8x1024x2048 : Shape := ⟨3, ![8, 1024, 2048]⟩
abbrev S8x1024x4096 : Shape := ⟨3, ![8, 1024, 4096]⟩
abbrev S8x1024x16 : Shape := ⟨3, ![8, 1024, 16]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S8x2048x4096, .f32⟩
  | .hbm, ⟨3, _⟩ => ⟨S8x2048x4096, .f32⟩
  | .hbm, ⟨4, _⟩ => ⟨S8x4096x2048, .f32⟩
  | .hbm, ⟨5, _⟩ => ⟨S8x2048x16, .f32⟩
  | .hbm, ⟨6, _⟩ => ⟨S8x16x4096, .f32⟩
  | .hbm, ⟨7, _⟩ => ⟨S8x2048x16, .f32⟩
  | .hbm, ⟨8, _⟩ => ⟨S8x16x4096, .f32⟩
  | .hbm, ⟨9, _⟩ => ⟨S8x4096x16, .f32⟩
  | .hbm, ⟨10, _⟩ => ⟨S8x16x2048, .f32⟩
  | .hbm, ⟨11, _⟩ => ⟨S8x1024x2048, .f32⟩
  | .hbm, ⟨12, _⟩ => ⟨S8x1024x4096, .f32⟩
  | .hbm, ⟨13, _⟩ => ⟨S8x1024x16, .f32⟩
  | .hbm, ⟨14, _⟩ => ⟨S8x1024x4096, .f32⟩
  | .hbm, ⟨15, _⟩ => ⟨S_, .f32⟩
  | .hbm, ⟨16, _⟩ => ⟨S8x1024x4096, .f32⟩
  | .hbm, ⟨17, _⟩ => ⟨S8x1024x4096, .f32⟩
  | .hbm, ⟨18, _⟩ => ⟨S8x1024x4096, .f32⟩
  | .hbm, ⟨19, _⟩ => ⟨S8x1024x4096, .f32⟩
  | .hbm, ⟨20, _⟩ => ⟨S8x1024x4096, .f32⟩
  | .hbm, ⟨21, _⟩ => ⟨S_, .f32⟩
  | .hbm, ⟨22, _⟩ => ⟨S8x1024x4096, .f32⟩
  | .hbm, ⟨23, _⟩ => ⟨S8x1024x4096, .f32⟩
  | .hbm, ⟨24, _⟩ => ⟨S_, .f32⟩
  | .hbm, ⟨25, _⟩ => ⟨S8x1024x4096, .f32⟩
  | .hbm, ⟨26, _⟩ => ⟨S8x1024x4096, .f32⟩
  | .hbm, ⟨27, _⟩ => ⟨S8x1024x4096, .f32⟩
  | .hbm, ⟨28, _⟩ => ⟨S8x1024x4096, .f32⟩
  | .hbm, ⟨29, _⟩ => ⟨S8x1024x16, .f32⟩
  | .hbm, ⟨30, _⟩ => ⟨S8x1024x4096, .f32⟩
  | .hbm, ⟨31, _⟩ => ⟨S_, .f32⟩
  | .hbm, ⟨32, _⟩ => ⟨S8x1024x4096, .f32⟩
  | .hbm, ⟨33, _⟩ => ⟨S8x1024x4096, .f32⟩
  | .hbm, ⟨34, _⟩ => ⟨S8x1024x4096, .f32⟩
  | .hbm, ⟨35, _⟩ => ⟨S8x1024x4096, .f32⟩
  | .hbm, ⟨36, _⟩ => ⟨S8x1024x2048, .f32⟩
  | .hbm, ⟨37, _⟩ => ⟨S8x1024x16, .f32⟩
  | .hbm, ⟨38, _⟩ => ⟨S8x1024x2048, .f32⟩
  | .hbm, ⟨39, _⟩ => ⟨S_, .f32⟩
  | .hbm, ⟨40, _⟩ => ⟨S8x1024x2048, .f32⟩
  | .hbm, ⟨41, _⟩ => ⟨S8x1024x2048, .f32⟩
  | .hbm, ⟨42, _⟩ => ⟨S8x1024x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]

class Facts₀ : Prop where
  shapeCasts_S8192x2048_S8x1024x2048 : S8192x2048.ShapeCasts S8x1024x2048
  bcast_S_S8x1024x4096 : S_.BroadcastsInDim S8x1024x4096 (![] : Fin 0 → Fin S8x1024x4096.rank)
  bcast_S_S8x1024x2048 : S_.BroadcastsInDim S8x1024x2048 (![] : Fin 0 → Fin S8x1024x2048.rank)
  shapeCasts_S8x1024x2048_S8192x2048 : S8x1024x2048.ShapeCasts S8192x2048
  dot_S8x1024x2048_S8x2048x4096_S8x1024x4096_2_1_1_2_0_0_wf : DotDims.WF S8x1024x2048 S8x2048x4096 S8x1024x4096 [2] [1] [1] [2] [0] [0]
  dot_S8x1024x2048_S8x2048x16_S8x1024x16_2_1_1_2_0_0_wf : DotDims.WF S8x1024x2048 S8x2048x16 S8x1024x16 [2] [1] [1] [2] [0] [0]
  dot_S8x1024x16_S8x16x4096_S8x1024x4096_2_1_1_2_0_0_wf : DotDims.WF S8x1024x16 S8x16x4096 S8x1024x4096 [2] [1] [1] [2] [0] [0]
  dot_S8x1024x4096_S8x4096x2048_S8x1024x2048_2_1_1_2_0_0_wf : DotDims.WF S8x1024x4096 S8x4096x2048 S8x1024x2048 [2] [1] [1] [2] [0] [0]
  dot_S8x1024x4096_S8x4096x16_S8x1024x16_2_1_1_2_0_0_wf : DotDims.WF S8x1024x4096 S8x4096x16 S8x1024x16 [2] [1] [1] [2] [0] [0]
  dot_S8x1024x16_S8x16x2048_S8x1024x2048_2_1_1_2_0_0_wf : DotDims.WF S8x1024x16 S8x16x2048 S8x1024x2048 [2] [1] [1] [2] [0] [0]

variable [Facts₀]

def dot_S8x1024x2048_S8x2048x4096_S8x1024x4096_2_1_1_2_0_0 : DotDims S8x1024x2048 S8x2048x4096 S8x1024x4096 where
  lhsContracting := [2]
  rhsContracting := [1]
  lhsNonContracting := [1]
  rhsNonContracting := [2]
  lhsBatch := [0]
  rhsBatch := [0]
  wf := dot_S8x1024x2048_S8x2048x4096_S8x1024x4096_2_1_1_2_0_0_wf
def dot_S8x1024x2048_S8x2048x16_S8x1024x16_2_1_1_2_0_0 : DotDims S8x1024x2048 S8x2048x16 S8x1024x16 where
  lhsContracting := [2]
  rhsContracting := [1]
  lhsNonContracting := [1]
  rhsNonContracting := [2]
  lhsBatch := [0]
  rhsBatch := [0]
  wf := dot_S8x1024x2048_S8x2048x16_S8x1024x16_2_1_1_2_0_0_wf
def dot_S8x1024x16_S8x16x4096_S8x1024x4096_2_1_1_2_0_0 : DotDims S8x1024x16 S8x16x4096 S8x1024x4096 where
  lhsContracting := [2]
  rhsContracting := [1]
  lhsNonContracting := [1]
  rhsNonContracting := [2]
  lhsBatch := [0]
  rhsBatch := [0]
  wf := dot_S8x1024x16_S8x16x4096_S8x1024x4096_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf
def dot_S8x1024x4096_S8x4096x16_S8x1024x16_2_1_1_2_0_0 : DotDims S8x1024x4096 S8x4096x16 S8x1024x16 where
  lhsContracting := [2]
  rhsContracting := [1]
  lhsNonContracting := [1]
  rhsNonContracting := [2]
  lhsBatch := [0]
  rhsBatch := [0]
  wf := dot_S8x1024x4096_S8x4096x16_S8x1024x16_2_1_1_2_0_0_wf
def dot_S8x1024x16_S8x16x2048_S8x1024x2048_2_1_1_2_0_0 : DotDims S8x1024x16 S8x16x2048 S8x1024x2048 where
  lhsContracting := [2]
  rhsContracting := [1]
  lhsNonContracting := [1]
  rhsNonContracting := [2]
  lhsBatch := [0]
  rhsBatch := [0]
  wf := dot_S8x1024x16_S8x16x2048_S8x1024x2048_2_1_1_2_0_0_wf

class Facts : Prop extends Facts₀ where

variable [Facts]
-- ==== Proof.Spec.lean ====
/-
  A grouped feed-forward layer with low-rank corrections, stated index by index on the extended reals.

  For each group e, a row t of the input and an output feature n, one corrected linear map is
      lin(x; W, A, B)[e, t, n] = Σ_k x[e,t,k] · W[e,k,n]  +  2 · Σ_r (Σ_k x[e,t,k] · A[e,k,r]) · B[e,r,n].
  The hidden activation is  silu(lin(x; Wg, Ag, Bg)) · lin(x; Wu, Au, Bu)  with  silu(v) = v · (1 / (1 + e^(-v))),
  and the layer's output is  lin(hidden; Wd, Ad, Bd).

  Everything is a finite sum of products, so no law beyond the commutative-monoid structure of the
  extended reals is used anywhere; in particular nothing here needs the inputs to be finite.

  Also here: a block of the layer's value only depends on the matching blocks of its operands.
-/
import Idealize.ShloMosaic.PureOps.Ideal
import Idealize.ShloMosaic.Lib.ValueIdx

noncomputable section

open scoped BigOperators

namespace Cert.LoraMlp

open Idealize.ShloMosaic Idealize.ShloMosaic.ValueIdx

/-- A rank-3 array of extended reals. -/
abbrev Arr3 (a b c : Nat) : Type := (⟨3, ![a, b, c]⟩ : Shape).Idx → EReal

/-- The low-rank scale alpha / rank = 32 / 16, as the word both programs carry. -/
def two : EReal := Ideal.ofBits .f32 0x40000000#32
/-- The unit of the logistic's numerator and denominator, as the word both programs carry. -/
def one : EReal := Ideal.ofBits .f32 0x3F800000#32

/-- One corrected linear map at (e, t, n): the dense product plus twice the product through the rank-R factor pair. -/
def loraAt {E T K N R : Nat} (x : Arr3 E T K) (w : Arr3 E K N) (a : Arr3 E K R) (b : Arr3 E R N)
    (e : Fin E) (t : Fin T) (n : Fin N) : EReal :=
  (∑ k : Fin K, x (ix3 e t k) * w (ix3 e k n))
    + two * ∑ r : Fin R, (∑ k : Fin K, x (ix3 e t k) * a (ix3 e k r)) * b (ix3 e r n)

/-- The corrected linear map as an array. -/
def lora {E T K N R : Nat} (x : Arr3 E T K) (w : Arr3 E K N) (a : Arr3 E K R) (b : Arr3 E R N) : Arr3 E T N :=
  fun i => loraAt x w a b (i 0) (i 1) (i 2)

/-- v · (1 / (1 + e^(-v))). -/
def silu (v : EReal) : EReal := v * Ideal.div one (one + Ideal.exp (-v))

/-- The hidden activation at (e, t, n): the gated product of the two corrected linear maps of the same input. -/
def hiddenAt {E T K N R : Nat} (x : Arr3 E T K) (wg : Arr3 E K N) (ag : Arr3 E K R) (bg : Arr3 E R N)
    (wu : Arr3 E K N) (au : Arr3 E K R) (bu : Arr3 E R N) (e : Fin E) (t : Fin T) (n : Fin N) : EReal :=
  silu (loraAt x wg ag bg e t n) * loraAt x wu au bu e t n

/-- The hidden activation as an array. -/
def hidden {E T K N R : Nat} (x : Arr3 E T K) (wg : Arr3 E K N) (ag : Arr3 E K R) (bg : Arr3 E R N)
    (wu : Arr3 E K N) (au : Arr3 E K R) (bu : Arr3 E R N) : Arr3 E T N :=
  fun i => hiddenAt x wg ag bg wu au bu (i 0) (i 1) (i 2)

/-! ## A block of the value depends on the matching blocks of the operands -/

/-- If a one-group block of each operand is the operand restricted to group e, rows embT and columns embN
    (the inner and rank axes whole), the corrected linear map of the blocks is the map of the arrays there. -/
theorem loraAt_block {E T K N R T' N' : Nat} (x : Arr3 E T K) (w : Arr3 E K N) (a : Arr3 E K R) (b : Arr3 E R N)
    (xb : Arr3 1 T' K) (wb : Arr3 1 K N') (ab : Arr3 1 K R) (bb : Arr3 1 R N')
    (e : Fin E) (embT : Fin T' → Fin T) (embN : Fin N' → Fin N)
    (hx : ∀ p k, xb (ix3 0 p k) = x (ix3 e (embT p) k)) (hw : ∀ k q, wb (ix3 0 k q) = w (ix3 e k (embN q)))
    (ha : ∀ k r, ab (ix3 0 k r) = a (ix3 e k r)) (hb : ∀ r q, bb (ix3 0 r q) = b (ix3 e r (embN q)))
    (p : Fin T') (q : Fin N') :
    loraAt xb wb ab bb 0 p q = loraAt x w a b e (embT p) (embN q) := by
  simp only [loraAt, hx, hw, ha, hb]

/-- The same for the hidden activation. -/
theorem hiddenAt_block {E T K N R T' N' : Nat} (x : Arr3 E T K) (wg : Arr3 E K N) (ag : Arr3 E K R) (bg : Arr3 E R N)
    (wu : Arr3 E K N) (au : Arr3 E K R) (bu : Arr3 E R N)
    (xb : Arr3 1 T' K) (wgb : Arr3 1 K N') (agb : Arr3 1 K R) (bgb : Arr3 1 R N')
    (wub : Arr3 1 K N') (aub : Arr3 1 K R) (bub : Arr3 1 R N')
    (e : Fin E) (embT : Fin T' → Fin T) (embN : Fin N' → Fin N)
    (hx : ∀ p k, xb (ix3 0 p k) = x (ix3 e (embT p) k))
    (hwg : ∀ k q, wgb (ix3 0 k q) = wg (ix3 e k (embN q))) (hag : ∀ k r, agb (ix3 0 k r) = ag (ix3 e k r))
    (hbg : ∀ r q, bgb (ix3 0 r q) = bg (ix3 e r (embN q)))
    (hwu : ∀ k q, wub (ix3 0 k q) = wu (ix3 e k (embN q))) (hau : ∀ k r, aub (ix3 0 k r) = au (ix3 e k r))
    (hbu : ∀ r q, bub (ix3 0 r q) = bu (ix3 e r (embN q)))
    (p : Fin T') (q : Fin N') :
    hiddenAt xb wgb agb bgb wub aub bub 0 p q = hiddenAt x wg ag bg wu au bu e (embT p) (embN q) := by
  unfold hiddenAt
  rw [loraAt_block x wg ag bg xb wgb agb bgb e embT embN hx hwg hag hbg p q,
    loraAt_block x wu au bu xb wub aub bub e embT embN hx hwu hau hbu p q]

end Cert.LoraMlp

end
-- ==== Proof.RefValue.lean ====
/-
  The reference program, read one operation at a time, is the grouped feed-forward layer of the specification:
  each batched product is the sum over its inner index at (group, row, ·) and (group, ·, column); the scale 2
  multiplies the low-rank product; the logistic is spelt 1 / (1 + e^(-v)); and the two reshapes at the ends are
  kept as they are (the kernel's program has the same two).
-/
import proofs.«113961_j42949673290_1_alg».proof.Proof.Gen.ReferenceIdeal.Read
import proofs.«113961_j42949673290_1_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.LoraMlp

/-! ## The operand indices of each batched product, by coordinates -/

theorem l_v1 (i : S8x1024x4096.Idx) (k : Fin 2048) : lidx_main_v1 i k = ix3 (n0 := 8) (n1 := 1024) (n2 := 2048) (i 0) (i 1) k :=
  funext fun a => by match a with | ⟨0, _⟩ => rfl | ⟨1, _⟩ => rfl | ⟨2, _⟩ => rfl
theorem r_v1 (i : S8x1024x4096.Idx) (k : Fin 2048) : ridx_main_v1 i k = ix3 (n0 := 8) (n1 := 2048) (n2 := 4096) (i 0) k (i 2) :=
  funext fun a => by match a with | ⟨0, _⟩ => rfl | ⟨1, _⟩ => rfl | ⟨2, _⟩ => rfl
theorem l_v2 (i : S8x1024x16.Idx) (k : Fin 2048) : lidx_main_v2 i k = ix3 (n0 := 8) (n1 := 1024) (n2 := 2048) (i 0) (i 1) k :=
  funext fun a => by match a with | ⟨0, _⟩ => rfl | ⟨1, _⟩ => rfl | ⟨2, _⟩ => rfl
theorem r_v2 (i : S8x1024x16.Idx) (k : Fin 2048) : ridx_main_v2 i k = ix3 (n0 := 8) (n1 := 2048) (n2 := 16) (i 0) k (i 2) :=
  funext fun a => by match a with | ⟨0, _⟩ => rfl | ⟨1, _⟩ => rfl | ⟨2, _⟩ => rfl
theorem l_v3 (i : S8x1024x4096.Idx) (k : Fin 16) : lidx_main_v3 i k = ix3 (n0 := 8) (n1 := 1024) (n2 := 16) (i 0) (i 1) k :=
  funext fun a => by match a with | ⟨0, _⟩ => rfl | ⟨1, _⟩ => rfl | ⟨2, _⟩ => rfl
theorem r_v3 (i : S8x1024x4096.Idx) (k : Fin 16) : ridx_main_v3 i k = ix3 (n0 := 8) (n1 := 16) (n2 := 4096) (i 0) k (i 2) :=
  funext fun a => by match a with | ⟨0, _⟩ => rfl | ⟨1, _⟩ => rfl | ⟨2, _⟩ => rfl
theorem l_v8 (i : S8x1024x4096.Idx) (k : Fin 2048) : lidx_main_v8 i k = ix3 (n0 := 8) (n1 := 1024) (n2 := 2048) (i 0) (i 1) k :=
  funext fun a => by match a with | ⟨0, _⟩ => rfl | ⟨1, _⟩ => rfl | ⟨2, _⟩ => rfl
theorem r_v8 (i : S8x1024x4096.Idx) (k : Fin 2048) : ridx_main_v8 i k = ix3 (n0 := 8) (n1 := 2048) (n2 := 4096) (i 0) k (i 2) :=
  funext fun a => by match a with | ⟨0, _⟩ => rfl | ⟨1, _⟩ => rfl | ⟨2, _⟩ => rfl
theorem l_v9 (i : S8x1024x16.Idx) (k : Fin 2048) : lidx_main_v9 i k = ix3 (n0 := 8) (n1 := 1024) (n2 := 2048) (i 0) (i 1) k :=
  funext fun a => by match a with | ⟨0, _⟩ => rfl | ⟨1, _⟩ => rfl | ⟨2, _⟩ => rfl
theorem r_v9 (i : S8x1024x16.Idx) (k : Fin 2048) : ridx_main_v9 i k = ix3 (n0 := 8) (n1 := 2048) (n2 := 16) (i 0) k (i 2) :=
  funext fun a => by match a with | ⟨0, _⟩ => rfl | ⟨1, _⟩ => rfl | ⟨2, _⟩ => rfl
theorem l_v10 (i : S8x1024x4096.Idx) (k : Fin 16) : lidx_main_v10 i k = ix3 (n0 := 8) (n1 := 1024) (n2 := 16) (i 0) (i 1) k :=
  funext fun a => by match a with | ⟨0, _⟩ => rfl | ⟨1, _⟩ => rfl | ⟨2, _⟩ => rfl
theorem r_v10 (i : S8x1024x4096.Idx) (k : Fin 16) : ridx_main_v10 i k = ix3 (n0 := 8) (n1 := 16) (n2 := 4096) (i 0) k (i 2) :=
  funext fun a => by match a with | ⟨0, _⟩ => rfl | ⟨1, _⟩ => rfl | ⟨2, _⟩ => rfl
theorem l_v15 (i : S8x1024x2048.Idx) (k : Fin 4096) : lidx_main_v15 i k = ix3 (n0 := 8) (n1 := 1024) (n2 := 4096) (i 0) (i 1) k :=
  funext fun a => by match a with | ⟨0, _⟩ => rfl | ⟨1, _⟩ => rfl | ⟨2, _⟩ => rfl
theorem r_v15 (i : S8x1024x2048.Idx) (k : Fin 4096) : ridx_main_v15 i k = ix3 (n0 := 8) (n1 := 4096) (n2 := 2048) (i 0) k (i 2) :=
  funext fun a => by match a with | ⟨0, _⟩ => rfl | ⟨1, _⟩ => rfl | ⟨2, _⟩ => rfl
theorem l_v16 (i : S8x1024x16.Idx) (k : Fin 4096) : lidx_main_v16 i k = ix3 (n0 := 8) (n1 := 1024) (n2 := 4096) (i 0) (i 1) k :=
  funext fun a => by match a with | ⟨0, _⟩ => rfl | ⟨1, _⟩ => rfl | ⟨2, _⟩ => rfl
theorem r_v16 (i : S8x1024x16.Idx) (k : Fin 4096) : ridx_main_v16 i k = ix3 (n0 := 8) (n1 := 4096) (n2 := 16) (i 0) k (i 2) :=
  funext fun a => by match a with | ⟨0, _⟩ => rfl | ⟨1, _⟩ => rfl | ⟨2, _⟩ => rfl
theorem l_v17 (i : S8x1024x2048.Idx) (k : Fin 16) : lidx_main_v17 i k = ix3 (n0 := 8) (n1 := 1024) (n2 := 16) (i 0) (i 1) k :=
  funext fun a => by match a with | ⟨0, _⟩ => rfl | ⟨1, _⟩ => rfl | ⟨2, _⟩ => rfl
theorem r_v17 (i : S8x1024x2048.Idx) (k : Fin 16) : ridx_main_v17 i k = ix3 (n0 := 8) (n1 := 16) (n2 := 2048) (i 0) k (i 2) :=
  funext fun a => by match a with | ⟨0, _⟩ => rfl | ⟨1, _⟩ => rfl | ⟨2, _⟩ => rfl

/-! ## The stages -/

/-- The gate's pre-activation is the corrected linear map of the regrouped input. -/
theorem gate_eq (x0 : (⟨S8192x2048, .f32⟩ : BufTy).Contents (Elt Ideal)) (x2 : (⟨S8x2048x4096, .f32⟩ : BufTy).Contents (Elt Ideal)) (x5 : (⟨S8x2048x16, .f32⟩ : BufTy).Contents (Elt Ideal))
    (x6 : (⟨S8x16x4096, .f32⟩ : BufTy).Contents (Elt Ideal)) (i : S8x1024x4096.Idx) :
    val_main_v6 (F := Ideal) x0 x2 x5 x6 i = loraAt (val_main_v0 (F := Ideal) x0) x2 x5 x6 (i 0) (i 1) (i 2) := by
  rw [val_main_v6_apply, val_main_v5_apply, val_main_v1_apply, val_main_v3_apply, val_main_v4_apply, val_main_cst_apply]
  simp only [val_main_v2_apply, l_v1, r_v1, l_v2, r_v2, l_v3, r_v3]
  rfl

/-- The up projection likewise. -/
theorem up_eq (x0 : (⟨S8192x2048, .f32⟩ : BufTy).Contents (Elt Ideal)) (x3 : (⟨S8x2048x4096, .f32⟩ : BufTy).Contents (Elt Ideal)) (x7 : (⟨S8x2048x16, .f32⟩ : BufTy).Contents (Elt Ideal))
    (x8 : (⟨S8x16x4096, .f32⟩ : BufTy).Contents (Elt Ideal)) (i : S8x1024x4096.Idx) :
    val_main_v13 (F := Ideal) x0 x3 x7 x8 i = loraAt (val_main_v0 (F := Ideal) x0) x3 x7 x8 (i 0) (i 1) (i 2) := by
  rw [val_main_v13_apply, val_main_v12_apply, val_main_v8_apply, val_main_v10_apply, val_main_v11_apply, val_main_cst_0_apply]
  simp only [val_main_v9_apply, l_v8, r_v8, l_v9, r_v9, l_v10, r_v10]
  rfl

/-- The called activation is v · (1 / (1 + e^(-v))) of the gate's pre-activation. -/
theorem act_eq (x0 : (⟨S8192x2048, .f32⟩ : BufTy).Contents (Elt Ideal)) (x2 : (⟨S8x2048x4096, .f32⟩ : BufTy).Contents (Elt Ideal)) (x5 : (⟨S8x2048x16, .f32⟩ : BufTy).Contents (Elt Ideal))
    (x6 : (⟨S8x16x4096, .f32⟩ : BufTy).Contents (Elt Ideal)) (i : S8x1024x4096.Idx) :
    val_main_v7 (F := Ideal) x0 x2 x5 x6 i = silu (val_main_v6 (F := Ideal) x0 x2 x5 x6 i) := by
  rw [val_main_v7_apply, val_main_call0_v5_apply, val_main_call0_v4_apply, val_main_call0_cst_0_apply,
    val_main_call0_v3_apply, val_main_call0_v2_apply, val_main_call0_cst_apply, val_main_call0_v1_apply,
    val_main_call0_v0_apply]
  rfl

/-- The hidden activation. -/
theorem hidden_eq (x0 : (⟨S8192x2048, .f32⟩ : BufTy).Contents (Elt Ideal)) (x2 x3 : (⟨S8x2048x4096, .f32⟩ : BufTy).Contents (Elt Ideal)) (x5 : (⟨S8x2048x16, .f32⟩ : BufTy).Contents (Elt Ideal))
    (x6 : (⟨S8x16x4096, .f32⟩ : BufTy).Contents (Elt Ideal)) (x7 : (⟨S8x2048x16, .f32⟩ : BufTy).Contents (Elt Ideal)) (x8 : (⟨S8x16x4096, .f32⟩ : BufTy).Contents (Elt Ideal)) :
    val_main_v14 (F := Ideal) x0 x2 x3 x5 x6 x7 x8 = hidden (val_main_v0 (F := Ideal) x0) x2 x5 x6 x3 x7 x8 := by
  funext i
  rw [val_main_v14_apply, act_eq, gate_eq, up_eq]
  rfl

/-- The down projection of any hidden array. -/
theorem down_eq (x0 : (⟨S8192x2048, .f32⟩ : BufTy).Contents (Elt Ideal)) (x2 x3 : (⟨S8x2048x4096, .f32⟩ : BufTy).Contents (Elt Ideal)) (x4 : (⟨S8x4096x2048, .f32⟩ : BufTy).Contents (Elt Ideal))
    (x5 : (⟨S8x2048x16, .f32⟩ : BufTy).Contents (Elt Ideal)) (x6 : (⟨S8x16x4096, .f32⟩ : BufTy).Contents (Elt Ideal)) (x7 : (⟨S8x2048x16, .f32⟩ : BufTy).Contents (Elt Ideal))
    (x8 : (⟨S8x16x4096, .f32⟩ : BufTy).Contents (Elt Ideal)) (x9 : (⟨S8x4096x16, .f32⟩ : BufTy).Contents (Elt Ideal)) (x10 : (⟨S8x16x2048, .f32⟩ : BufTy).Contents (Elt Ideal)) :
    val_main_v20 (F := Ideal) x0 x2 x3 x4 x5 x6 x7 x8 x9 x10
      = lora (val_main_v14 (F := Ideal) x0 x2 x3 x5 x6 x7 x8) x4 x9 x10 := by
  funext i
  rw [val_main_v20_apply, val_main_v19_apply, val_main_v15_apply, val_main_v17_apply, val_main_v18_apply, val_main_cst_1_apply]
  simp only [val_main_v16_apply, l_v15, r_v15, l_v16, r_v16, l_v17, r_v17]
  rfl

/-- THE REFERENCE'S RESULT: the layer of the regrouped input, flattened back to rows. -/
theorem result_eq (x0 : (⟨S8192x2048, .f32⟩ : BufTy).Contents (Elt Ideal)) (x2 x3 : (⟨S8x2048x4096, .f32⟩ : BufTy).Contents (Elt Ideal)) (x4 : (⟨S8x4096x2048, .f32⟩ : BufTy).Contents (Elt Ideal))
    (x5 : (⟨S8x2048x16, .f32⟩ : BufTy).Contents (Elt Ideal)) (x6 : (⟨S8x16x4096, .f32⟩ : BufTy).Contents (Elt Ideal)) (x7 : (⟨S8x2048x16, .f32⟩ : BufTy).Contents (Elt Ideal))
    (x8 : (⟨S8x16x4096, .f32⟩ : BufTy).Contents (Elt Ideal)) (x9 : (⟨S8x4096x16, .f32⟩ : BufTy).Contents (Elt Ideal)) (x10 : (⟨S8x16x2048, .f32⟩ : BufTy).Contents (Elt Ideal)) :
    val_main_v21 (F := Ideal) x0 x2 x3 x4 x5 x6 x7 x8 x9 x10
      = shapeCast S8192x2048
          (lora (hidden (shapeCast S8x1024x2048 x0 shapeCasts_S8192x2048_S8x1024x2048) x2 x5 x6 x3 x7 x8) x4 x9 x10)
          shapeCasts_S8x1024x2048_S8192x2048 := by
  unfold val_main_v21
  rw [down_eq, hidden_eq]
  rfl

end Cert.ReferenceIdeal.RefValue

end
-- ==== Proof.LibMatmul.lean ====
/-
  General lemmas about a PLAIN matrix product and about unit leading axes, at the exact (extended-real) reading.

  * A product of an M × K by a K × N matrix (dimension numbers: contract the left operand's second axis with the
    right operand's first, no batch axes) accumulated into zeros, read at entry (p, q), is Σ_k l[p,k] · r[k,q]:
    the contraction's index set has one axis of extent K, and the operand indices at (p, q) and k are (p, k) and (k, q).
  * A reshape that drops a leading axis of extent one reads (p, q) at (0, p, q); one that adds it reads (z, p, q) at (p, q).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibMatmul

open Idealize.ShloMosaic Idealize.ShloMosaic.ValueIdx

/-- A coordinate of an index read at a position known only up to an equation of naturals. -/
theorem coord_of_eq {r : Nat} {sz : Fin r → Nat} (j : (a : Fin r) → Fin (sz a)) (p q : Nat) (hp : p < r) (hq : q < r)
    (h : p = q) : (j ⟨p, hp⟩).val = (j ⟨q, hq⟩).val := by subst h; rfl

section Matmul
variable {M K N : Nat} {φ₁ φ₂ : FTy}

/-- The dimension numbers of a plain product: rows × inner times inner × columns, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)} (hd : IsPlain d)
include hd

theorem IsPlain.contr_rank : d.contr.rank = 1 := by rw [d.rank_contr, hd.lc]; rfl

theorem IsPlain.contr_size : d.contr.size ⟨0, by rw [hd.contr_rank]; exact Nat.one_pos⟩ = K := by
  have h := d.size_contr 0 (by rw [hd.lc]; exact Nat.one_pos)
  rw [h]
  have : d.lhsContracting[0]'(by rw [hd.lc]; exact Nat.one_pos) = 1 := by simp [hd.lc]
  rw [this]; rfl

theorem IsPlain.lhs_row (j : (⟨2, ![M, N]⟩ : Shape).Idx) (k : d.contr.Idx) : (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact coord_of_eq j _ _ _ _ (by simp [hd.lb, hd.ln])

theorem IsPlain.lhs_inner (j : (⟨2, ![M, N]⟩ : Shape).Idx) (k : d.contr.Idx) :
    (d.lhsIdx j k 1).val = (k ⟨0, by rw [hd.contr_rank]; exact Nat.one_pos⟩).val :=
  d.lhsIdx_val_of_single hd.lc j k

theorem IsPlain.rhs_inner (j : (⟨2, ![M, N]⟩ : Shape).Idx) (k : d.contr.Idx) :
    (d.rhsIdx j k 0).val = (k ⟨0, by rw [hd.contr_rank]; exact Nat.one_pos⟩).val :=
  d.rhsIdx_val_of_single hd.rc j k

theorem IsPlain.rhs_col (j : (⟨2, ![M, N]⟩ : Shape).Idx) (k : d.contr.Idx) : (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact coord_of_eq j _ _ _ _ (by simp [hd.lb, hd.ln, hd.rn])

/-- Entry (p, q) of the product of l (M × K) and r (K × N) accumulated into zeros is Σ_k l[p,k] · r[k,q]. -/
theorem IsPlain.matmul_zero_apply (prec : Option ContractPrecision) (l : FVec Ideal (⟨2, ![M, K]⟩ : Shape) φ₁)
    (r : FVec Ideal (⟨2, ![K, N]⟩ : Shape) φ₂) (p : Fin M) (q : Fin N) :
    matmul d prec l r (constant (⟨2, ![M, N]⟩ : Shape) .f32 0x00000000#32) (ix2 p q) = ∑ k : Fin K, l (ix2 p k) * r (ix2 k q) := by
  simp only [matmul]
  rw [Ideal.matmul_constant_zero_apply, ← Equiv.sum_comp (contrEquiv1 d K hd.contr_rank hd.contr_size).symm]
  refine Finset.sum_congr rfl fun k _ => ?_
  have hk := contrEquiv1_symm_val d K hd.contr_rank hd.contr_size k
  have el : d.lhsIdx (ix2 p q) ((contrEquiv1 d K hd.contr_rank hd.contr_size).symm k) = ix2 p k :=
    funext fun a => Fin.ext (by
      match a with
      | ⟨0, _⟩ => exact hd.lhs_row _ _
      | ⟨1, _⟩ => exact (hd.lhs_inner _ _).trans hk)
  have er : d.rhsIdx (ix2 p q) ((contrEquiv1 d K hd.contr_rank hd.contr_size).symm k) = ix2 k q :=
    funext fun a => Fin.ext (by
      match a with
      | ⟨0, _⟩ => exact (hd.rhs_inner _ _).trans hk
      | ⟨1, _⟩ => exact hd.rhs_col _ _)
  rw [el, er]

end Matmul

/-! ## Unit leading axes -/

section UnitAxis
variable {A B : Nat} {α : Type}

/-- Dropping a leading axis of extent one: (p, q) reads (0, p, q). -/
theorem shapeCast_drop1 (v : (⟨3, ![1, A, B]⟩ : Shape).Idx → α)
    (h : (⟨3, ![1, A, B]⟩ : Shape).ShapeCasts (⟨2, ![A, B]⟩ : Shape)) (p : Fin A) (q : Fin B) :
    shapeCast (⟨2, ![A, B]⟩ : Shape) v h (ix2 p q) = v (ix3 0 p q) :=
  shapeCast_apply v h (ix2 p q) (ix3 0 p q) (by
    rw [Shape.rowMajor_val_three, Shape.rowMajor_val_two]
    show (0 * A + p.val) * B + q.val = p.val * B + q.val
    simp)

/-- Adding a leading axis of extent one: (z, p, q) reads (p, q). -/
theorem shapeCast_add1 (v : (⟨2, ![A, B]⟩ : Shape).Idx → α)
    (h : (⟨2, ![A, B]⟩ : Shape).ShapeCasts (⟨3, ![1, A, B]⟩ : Shape)) (z : Fin 1) (p : Fin A) (q : Fin B) :
    shapeCast (⟨3, ![1, A, B]⟩ : Shape) v h (ix3 z p q) = v (ix2 p q) :=
  shapeCast_apply v h (ix3 z p q) (ix2 p q) (by
    rw [Shape.rowMajor_val_three, Shape.rowMajor_val_two]
    have hz : z.val = 0 := by omega
    show p.val * B + q.val = (z.val * A + p.val) * B + q.val
    rw [hz]; simp)

end UnitAxis

end Cert.LibMatmul

end
-- ==== Proof.Body.lean ====
/-
  The two kernel bodies as vector terms, read at one entry, are the specification's formulas on one-group blocks.

  A block arrives with a leading axis of extent one, which the body drops before its plain products; the low-rank
  product goes through a narrowing of its intermediate, which is the identity on exact values; the scale 2 and the
  constants 0 and 1 are splats of the words the specification names. The negation in the logistic is written 0 - v.
-/
import proofs.«113961_j42949673290_1_alg».proof.Proof.Spec
import proofs.«113961_j42949673290_1_alg».proof.Proof.LibMatmul

noncomputable section

open scoped BigOperators

namespace Cert.LoraMlp

open Idealize.ShloMosaic Idealize.ShloMosaic.ValueIdx Cert.LibMatmul

section Body
variable {T K N R : Nat}
variable {d1 : DotDims (⟨2, ![T, K]⟩ : Shape) (⟨2, ![K, N]⟩ : Shape) (⟨2, ![T, N]⟩ : Shape)}
  {d2 : DotDims (⟨2, ![T, K]⟩ : Shape) (⟨2, ![K, R]⟩ : Shape) (⟨2, ![T, R]⟩ : Shape)}
  {d3 : DotDims (⟨2, ![T, R]⟩ : Shape) (⟨2, ![R, N]⟩ : Shape) (⟨2, ![T, N]⟩ : Shape)}

/-- The dense product of the un-grouped blocks plus twice the product through the rank-R pair, at (p, q), is the
    corrected linear map of the one-group blocks at (0, p, q). -/
theorem lora_body (h1 : IsPlain d1) (h2 : IsPlain d2) (h3 : IsPlain d3)
    (x : FVec Ideal (⟨3, ![1, T, K]⟩ : Shape) .bf16) (w : FVec Ideal (⟨3, ![1, K, N]⟩ : Shape) .bf16)
    (a : FVec Ideal (⟨3, ![1, K, R]⟩ : Shape) .bf16) (b : FVec Ideal (⟨3, ![1, R, N]⟩ : Shape) .bf16)
    (hx : (⟨3, ![1, T, K]⟩ : Shape).ShapeCasts (⟨2, ![T, K]⟩ : Shape))
    (hw : (⟨3, ![1, K, N]⟩ : Shape).ShapeCasts (⟨2, ![K, N]⟩ : Shape))
    (ha : (⟨3, ![1, K, R]⟩ : Shape).ShapeCasts (⟨2, ![K, R]⟩ : Shape))
    (hb : (⟨3, ![1, R, N]⟩ : Shape).ShapeCasts (⟨2, ![R, N]⟩ : Shape))
    (hbits : FTy.bits .bf16 < FTy.bits .f32) (p : Fin T) (q : Fin N) :
    addf (matmul d1 none (shapeCast (⟨2, ![T, K]⟩ : Shape) x hx) (shapeCast (⟨2, ![K, N]⟩ : Shape) w hw)
            (constant (⟨2, ![T, N]⟩ : Shape) .f32 0x00000000#32))
        (mulf (broadcast (⟨2, ![T, N]⟩ : Shape) (Scalar.ofBits .f32 0x40000000#32 : Ideal .f32))
          (matmul d3 none
            (truncf .bf16 (matmul d2 none (shapeCast (⟨2, ![T, K]⟩ : Shape) x hx) (shapeCast (⟨2, ![K, R]⟩ : Shape) a ha)
              (constant (⟨2, ![T, R]⟩ : Shape) .f32 0x00000000#32)) hbits)
            (shapeCast (⟨2, ![R, N]⟩ : Shape) b hb) (constant (⟨2, ![T, N]⟩ : Shape) .f32 0x00000000#32)))
        (ix2 p q)
      = loraAt x w a b 0 p q := by
  rw [addf_apply, mulf_apply, broadcast_apply, h1.matmul_zero_apply, h3.matmul_zero_apply]
  simp only [truncf_apply, h2.matmul_zero_apply, shapeCast_drop1]
  rfl

end Body

/-- The gated product of a pre-activation g with u, the logistic written 1 / (1 + e^(0 - g)), at an entry. -/
theorem gated_body {S : Shape} (g u : FVec Ideal S .f32) (i : S.Idx) :
    mulf (mulf g (divf (broadcast S (Scalar.ofBits .f32 0x3F800000#32 : Ideal .f32))
        (addf (broadcast S (Scalar.ofBits .f32 0x3F800000#32 : Ideal .f32))
          (exp (subf (broadcast S (Scalar.ofBits .f32 0x00000000#32 : Ideal .f32)) g))))) u i
      = silu (g i) * u i := by
  show g i * Ideal.div (Ideal.ofBits .f32 0x3F800000#32)
      (Ideal.ofBits .f32 0x3F800000#32 + Ideal.exp (Ideal.ofBits .f32 0x00000000#32 - g i)) * u i = _
  rw [Ideal.ofBits_zero_f32, zero_sub]
  rfl

end Cert.LoraMlp

end
-- ==== Proof.GateUp.lean ====
/-
  The first pallas_call's output array: every grid point (e, ti, hi) writes the 512 × 2048 block of rows
  ti·512 … and columns hi·2048 … of group e, and what it writes there is the hidden activation
  silu(lin(x; Wg, Ag, Bg)) · lin(x; Wu, Au, Bu) of the arrays the call was entered with, because each input block
  is the matching slab of its array (x: group e, rows of ti, all inner columns; a dense weight: group e, all inner
  rows, columns of hi; a rank factor: group e, whole, or group e, all rank rows, columns of hi).
  The 8 · 2 · 2 blocks tile the 8 × 1024 × 4096 array, so the array ends as the hidden activation everywhere.
-/
import proofs.«113961_j42949673290_1_alg».proof.Proof.Gen.KernelIdeal.Frame
import proofs.«113961_j42949673290_1_alg».proof.Proof.Body
import Idealize.ShloMosaic.Lib.Pipeline.Value

set_option maxRecDepth 16384

noncomputable section

namespace Cert.KernelIdeal.GateUp

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LoraMlp Cert.LibMatmul

variable (V : (c : Dev nD) → (b : Ref sig .tc) → Buf (Elt Ideal) ((c : Thread nD τ).loc b))

/-! ## The arrays the call is entered with, at their literal shapes -/

abbrev aX (c : Dev nD) : Arr3 8 1024 2048 := V c main_v1
abbrev aWg (c : Dev nD) : Arr3 8 2048 4096 := V c main_v2
abbrev aWu (c : Dev nD) : Arr3 8 2048 4096 := V c main_v3
abbrev aAg (c : Dev nD) : Arr3 8 2048 16 := V c main_v5
abbrev aBg (c : Dev nD) : Arr3 8 16 4096 := V c main_v6
abbrev aAu (c : Dev nD) : Arr3 8 2048 16 := V c main_v7
abbrev aBu (c : Dev nD) : Arr3 8 16 4096 := V c main_v8

/-- The hidden activation of those arrays. -/
def hiddenArr (c : Dev nD) : Arr3 8 1024 4096 :=
  hidden (aX V c) (aWg V c) (aAg V c) (aBg V c) (aWu V c) (aAu V c) (aBu V c)

/-! ## The index maps over the grid -/

theorem hz3 : (![0, 0, 0] : Fin 3 → Nat) = fun _ => 0 := funext fun a => by fin_cases a <;> rfl

/-- The output block of point t is (group, row block, column block) within 8 × 2 × 2. -/
theorem out_range : ∀ t : Fin cfg0.N, win0_7.index t (0 : Fin 3) ≤ 7 ∧ win0_7.index t (1 : Fin 3) ≤ 1 ∧ win0_7.index t (2 : Fin 3) ≤ 1 :=
  (by decide +kernel : ∀ t : Fin grid0.N, _)
/-- The input's block: same group and row block, the inner axis whole. -/
theorem in0 : ∀ t : Fin cfg0.N, win0_0.index t (0 : Fin 3) = win0_7.index t (0 : Fin 3) ∧ win0_0.index t (1 : Fin 3) = win0_7.index t (1 : Fin 3) ∧ win0_0.index t (2 : Fin 3) = 0 :=
  (by decide +kernel : ∀ t : Fin grid0.N, _)
/-- A dense weight's block: same group and column block, the inner axis whole. -/
theorem in1 : ∀ t : Fin cfg0.N, win0_1.index t (0 : Fin 3) = win0_7.index t (0 : Fin 3) ∧ win0_1.index t (1 : Fin 3) = 0 ∧ win0_1.index t (2 : Fin 3) = win0_7.index t (2 : Fin 3) :=
  (by decide +kernel : ∀ t : Fin grid0.N, _)
theorem in2 : ∀ t : Fin cfg0.N, win0_2.index t (0 : Fin 3) = win0_7.index t (0 : Fin 3) ∧ win0_2.index t (1 : Fin 3) = 0 ∧ win0_2.index t (2 : Fin 3) = win0_7.index t (2 : Fin 3) :=
  (by decide +kernel : ∀ t : Fin grid0.N, _)
/-- A first rank factor's block: the whole slab of the group. -/
theorem in3 : ∀ t : Fin cfg0.N, win0_3.index t (0 : Fin 3) = win0_7.index t (0 : Fin 3) ∧ win0_3.index t (1 : Fin 3) = 0 ∧ win0_3.index t (2 : Fin 3) = 0 :=
  (by decide +kernel : ∀ t : Fin grid0.N, _)
/-- A second rank factor's block: same group and column block, the rank axis whole. -/
theorem in4 : ∀ t : Fin cfg0.N, win0_4.index t (0 : Fin 3) = win0_7.index t (0 : Fin 3) ∧ win0_4.index t (1 : Fin 3) = 0 ∧ win0_4.index t (2 : Fin 3) = win0_7.index t (2 : Fin 3) :=
  (by decide +kernel : ∀ t : Fin grid0.N, _)
theorem in5 : ∀ t : Fin cfg0.N, win0_5.index t (0 : Fin 3) = win0_7.index t (0 : Fin 3) ∧ win0_5.index t (1 : Fin 3) = 0 ∧ win0_5.index t (2 : Fin 3) = 0 :=
  (by decide +kernel : ∀ t : Fin grid0.N, _)
theorem in6 : ∀ t : Fin cfg0.N, win0_6.index t (0 : Fin 3) = win0_7.index t (0 : Fin 3) ∧ win0_6.index t (1 : Fin 3) = 0 ∧ win0_6.index t (2 : Fin 3) = win0_7.index t (2 : Fin 3) :=
  (by decide +kernel : ∀ t : Fin grid0.N, _)
/-- Every (group, row block, column block) is some point's. -/
theorem out_onto : ∀ (q0 : Fin 8) (q1 : Fin 2) (q2 : Fin 2), ∃ t : Fin cfg0.N, win0_7.index t = ![q0.val, q1.val, q2.val] :=
  (by decide +kernel : ∀ (q0 : Fin 8) (q1 : Fin 2) (q2 : Fin 2), ∃ t : Fin grid0.N, win0_7.index t = ![q0.val, q1.val, q2.val])

/-- The group, the row and the column of the array that point t's block entry (p, q) is. -/
def grp (t : Fin cfg0.N) : Fin 8 := ⟨win0_7.index t (0 : Fin 3), by have := (out_range t).1; omega⟩
def rowOf (t : Fin cfg0.N) (p : Fin 512) : Fin 1024 := ⟨win0_7.index t (1 : Fin 3) * 512 + p.val, by have := (out_range t).2.1; omega⟩
def colOf (t : Fin cfg0.N) (q : Fin 2048) : Fin 4096 := ⟨win0_7.index t (2 : Fin 3) * 2048 + q.val, by have := (out_range t).2.2; omega⟩

/-! ## The body at one entry -/

/-- What the body leaves at entry (0, p, q) of its output block is the hidden activation of its input blocks. -/
theorem body_eq (x0 : Vec Ideal S1x512x2048 .bf16) (x1 x2 : Vec Ideal S1x2048x2048 .bf16) (x3 : Vec Ideal S1x2048x16 .bf16)
    (x4 : Vec Ideal S1x16x2048 .bf16) (x5 : Vec Ideal S1x2048x16 .bf16) (x6 : Vec Ideal S1x16x2048 .bf16)
    (p : Fin 512) (q : Fin 2048) :
    out0_7 (F := Ideal) x0 x1 x2 x3 x4 x5 x6 (ix3 0 p q) = hiddenAt x0 x1 x3 x4 x2 x5 x6 0 p q := by
  unfold out0_7
  rw [View.canon_unit_zero hz3]
  simp only [View.ld_unit_zero (S := S1x512x2048) hz3, View.ld_unit_zero (S := S1x2048x2048) hz3,
    View.ld_unit_zero (S := S1x2048x16) hz3, View.ld_unit_zero (S := S1x16x2048) hz3]
  unfold k0_pay1 k0_pay6 k0_pay2 k0_pay3 k0_pay4 k0_pay5
  dsimp only
  rw [shapeCast_add1, truncf_apply, gated_body]
  unfold hiddenAt
  rw [lora_body ⟨rfl, rfl, rfl, rfl, rfl, rfl⟩ ⟨rfl, rfl, rfl, rfl, rfl, rfl⟩ ⟨rfl, rfl, rfl, rfl, rfl, rfl⟩,
    lora_body ⟨rfl, rfl, rfl, rfl, rfl, rfl⟩ ⟨rfl, rfl, rfl, rfl, rfl, rfl⟩ ⟨rfl, rfl, rfl, rfl, rfl, rfl⟩]

/-! ## Each input block is a slab of its array -/

theorem rd0 (c : Dev nD) (t : Fin cfg0.N) (p : Fin 512) (k : Fin 2048) :
    (iblk0 V c 0 t : Vec Ideal S1x512x2048 .bf16) (ix3 0 p k) = aX V c (ix3 (grp t) (rowOf t p) k) := by
  obtain ⟨e0, e1, e2⟩ := in0 t
  show V c main_v1 (((cfg0.win 0).blk t).view.emb (ix3 0 p k)) = V c main_v1 (ix3 (grp t) (rowOf t p) k)
  refine congrArg _ (funext fun a => Fin.ext ?_)
  match a with
  | ⟨0, _⟩ => show win0_0.index t (0 : Fin 3) * 1 + 1 * 0 = win0_7.index t (0 : Fin 3); omega
  | ⟨1, _⟩ => show win0_0.index t (1 : Fin 3) * 512 + 1 * p.val = win0_7.index t (1 : Fin 3) * 512 + p.val; omega
  | ⟨2, _⟩ => show win0_0.index t (2 : Fin 3) * 2048 + 1 * k.val = k.val; omega
theorem rd1 (c : Dev nD) (t : Fin cfg0.N) (k : Fin 2048) (q : Fin 2048) :
    (iblk0 V c 1 t : Vec Ideal S1x2048x2048 .bf16) (ix3 0 k q) = aWg V c (ix3 (grp t) k (colOf t q)) := by
  obtain ⟨e0, e1, e2⟩ := in1 t
  show V c main_v2 (((cfg0.win 1).blk t).view.emb (ix3 0 k q)) = V c main_v2 (ix3 (grp t) k (colOf t q))
  refine congrArg _ (funext fun a => Fin.ext ?_)
  match a with
  | ⟨0, _⟩ => show win0_1.index t (0 : Fin 3) * 1 + 1 * 0 = win0_7.index t (0 : Fin 3); omega
  | ⟨1, _⟩ => show win0_1.index t (1 : Fin 3) * 2048 + 1 * k.val = k.val; omega
  | ⟨2, _⟩ => show win0_1.index t (2 : Fin 3) * 2048 + 1 * q.val = win0_7.index t (2 : Fin 3) * 2048 + q.val; omega
theorem rd2 (c : Dev nD) (t : Fin cfg0.N) (k : Fin 2048) (q : Fin 2048) :
    (iblk0 V c 2 t : Vec Ideal S1x2048x2048 .bf16) (ix3 0 k q) = aWu V c (ix3 (grp t) k (colOf t q)) := by
  obtain ⟨e0, e1, e2⟩ := in2 t
  show V c main_v3 (((cfg0.win 2).blk t).view.emb (ix3 0 k q)) = V c main_v3 (ix3 (grp t) k (colOf t q))
  refine congrArg _ (funext fun a => Fin.ext ?_)
  match a with
  | ⟨0, _⟩ => show win0_2.index t (0 : Fin 3) * 1 + 1 * 0 = win0_7.index t (0 : Fin 3); omega
  | ⟨1, _⟩ => show win0_2.index t (1 : Fin 3) * 2048 + 1 * k.val = k.val; omega
  | ⟨2, _⟩ => show win0_2.index t (2 : Fin 3) * 2048 + 1 * q.val = win0_7.index t (2 : Fin 3) * 2048 + q.val; omega
theorem rd3 (c : Dev nD) (t : Fin cfg0.N) (k : Fin 2048) (r : Fin 16) :
    (iblk0 V c 3 t : Vec Ideal S1x2048x16 .bf16) (ix3 0 k r) = aAg V c (ix3 (grp t) k r) := by
  obtain ⟨e0, e1, e2⟩ := in3 t
  show V c main_v5 (((cfg0.win 3).blk t).view.emb (ix3 0 k r)) = V c main_v5 (ix3 (grp t) k r)
  refine congrArg _ (funext fun a => Fin.ext ?_)
  match a with
  | ⟨0, _⟩ => show win0_3.index t (0 : Fin 3) * 1 + 1 * 0 = win0_7.index t (0 : Fin 3); omega
  | ⟨1, _⟩ => show win0_3.index t (1 : Fin 3) * 2048 + 1 * k.val = k.val; omega
  | ⟨2, _⟩ => show win0_3.index t (2 : Fin 3) * 16 + 1 * r.val = r.val; omega
theorem rd4 (c : Dev nD) (t : Fin cfg0.N) (r : Fin 16) (q : Fin 2048) :
    (iblk0 V c 4 t : Vec Ideal S1x16x2048 .bf16) (ix3 0 r q) = aBg V c (ix3 (grp t) r (colOf t q)) := by
  obtain ⟨e0, e1, e2⟩ := in4 t
  show V c main_v6 (((cfg0.win 4).blk t).view.emb (ix3 0 r q)) = V c main_v6 (ix3 (grp t) r (colOf t q))
  refine congrArg _ (funext fun a => Fin.ext ?_)
  match a with
  | ⟨0, _⟩ => show win0_4.index t (0 : Fin 3) * 1 + 1 * 0 = win0_7.index t (0 : Fin 3); omega
  | ⟨1, _⟩ => show win0_4.index t (1 : Fin 3) * 16 + 1 * r.val = r.val; omega
  | ⟨2, _⟩ => show win0_4.index t (2 : Fin 3) * 2048 + 1 * q.val = win0_7.index t (2 : Fin 3) * 2048 + q.val; omega
theorem rd5 (c : Dev nD) (t : Fin cfg0.N) (k : Fin 2048) (r : Fin 16) :
    (iblk0 V c 5 t : Vec Ideal S1x2048x16 .bf16) (ix3 0 k r) = aAu V c (ix3 (grp t) k r) := by
  obtain ⟨e0, e1, e2⟩ := in5 t
  show V c main_v7 (((cfg0.win 5).blk t).view.emb (ix3 0 k r)) = V c main_v7 (ix3 (grp t) k r)
  refine congrArg _ (funext fun a => Fin.ext ?_)
  match a with
  | ⟨0, _⟩ => show win0_5.index t (0 : Fin 3) * 1 + 1 * 0 = win0_7.index t (0 : Fin 3); omega
  | ⟨1, _⟩ => show win0_5.index t (1 : Fin 3) * 2048 + 1 * k.val = k.val; omega
  | ⟨2, _⟩ => show win0_5.index t (2 : Fin 3) * 16 + 1 * r.val = r.val; omega
theorem rd6 (c : Dev nD) (t : Fin cfg0.N) (r : Fin 16) (q : Fin 2048) :
    (iblk0 V c 6 t : Vec Ideal S1x16x2048 .bf16) (ix3 0 r q) = aBu V c (ix3 (grp t) r (colOf t q)) := by
  obtain ⟨e0, e1, e2⟩ := in6 t
  show V c main_v8 (((cfg0.win 6).blk t).view.emb (ix3 0 r q)) = V c main_v8 (ix3 (grp t) r (colOf t q))
  refine congrArg _ (funext fun a => Fin.ext ?_)
  match a with
  | ⟨0, _⟩ => show win0_6.index t (0 : Fin 3) * 1 + 1 * 0 = win0_7.index t (0 : Fin 3); omega
  | ⟨1, _⟩ => show win0_6.index t (1 : Fin 3) * 16 + 1 * r.val = r.val; omega
  | ⟨2, _⟩ => show win0_6.index t (2 : Fin 3) * 2048 + 1 * q.val = win0_7.index t (2 : Fin 3) * 2048 + q.val; omega

/-! ## What a point writes back, the cover, and the array after the call -/

/-- WHAT POINT t WRITES BACK is block t of the hidden activation of the arrays the call was entered with. -/
theorem flushed_eq (c : Dev nD) (t : Fin cfg0.N) :
    (dat0 V c).flushed 7 t = ((cfg0.win 7).blk t).view.read (Elt Ideal) (hiddenArr V c) := by
  show (cfg0.win 7).cut (grid0.coords t) ((dat0 V c).after 7 t) = _
  rw [after0_7]
  funext j
  obtain ⟨z, p, q, rfl⟩ : ∃ (z : Fin 1) (p : Fin 512) (q : Fin 2048), j = ix3 z p q := ⟨j 0, j 1, j 2, eq_ix3 j⟩
  obtain rfl : z = 0 := Subsingleton.elim _ _
  show out0_7 (iblk0 V c 0 t) (iblk0 V c 1 t) (iblk0 V c 2 t) (iblk0 V c 3 t) (iblk0 V c 4 t) (iblk0 V c 5 t) (iblk0 V c 6 t) (ix3 0 p q)
    = hiddenArr V c (((cfg0.win 7).blk t).view.emb (ix3 0 p q))
  have hemb : ((cfg0.win 7).blk t).view.emb (ix3 0 p q) = ix3 (grp t) (rowOf t p) (colOf t q) := by
    funext a; apply Fin.ext
    match a with
    | ⟨0, _⟩ => show win0_7.index t (0 : Fin 3) * 1 + 1 * 0 = win0_7.index t (0 : Fin 3); omega
    | ⟨1, _⟩ => show win0_7.index t (1 : Fin 3) * 512 + 1 * p.val = win0_7.index t (1 : Fin 3) * 512 + p.val; omega
    | ⟨2, _⟩ => show win0_7.index t (2 : Fin 3) * 2048 + 1 * q.val = win0_7.index t (2 : Fin 3) * 2048 + q.val; omega
  rw [hemb]
  refine (body_eq (iblk0 V c 0 t) (iblk0 V c 1 t) (iblk0 V c 2 t) (iblk0 V c 3 t) (iblk0 V c 4 t) (iblk0 V c 5 t) (iblk0 V c 6 t) p q).trans ?_
  exact hiddenAt_block (aX V c) (aWg V c) (aAg V c) (aBg V c) (aWu V c) (aAu V c) (aBu V c)
    (iblk0 V c 0 t) (iblk0 V c 1 t) (iblk0 V c 3 t) (iblk0 V c 4 t) (iblk0 V c 2 t) (iblk0 V c 5 t) (iblk0 V c 6 t)
    (grp t) (rowOf t) (colOf t) (rd0 V c t) (rd1 V c t) (rd3 V c t) (rd4 V c t) (rd2 V c t) (rd5 V c t) (rd6 V c t) p q

/-- An index of the array is in point t's block iff each coordinate is in the block's range on its axis. -/
theorem mem_blk (t : Fin cfg0.N) (i : S8x1024x4096.Idx) :
    i ∈ ((cfg0.win 7).blk t).view.set ↔ ∀ a : Fin 3, win0_7.index t a * S1x512x2048.size a ≤ (i a).val ∧ (i a).val < win0_7.index t a * S1x512x2048.size a + S1x512x2048.size a := by
  show i ∈ ((View.whole main_v11).slice (win0_7.rect t)).set ↔ _
  rw [View.set_slice_whole, Rect.mem_set_unit]
  exact Iff.rfl

/-- Every index of the array is in some point's block: the point of its group, row block and column block. -/
theorem cover (i : S8x1024x4096.Idx) : ∃ t : Fin cfg0.N, (cfg0.win 7).flush t = true ∧ i ∈ ((cfg0.win 7).blk t).view.set := by
  have h0 : (i 0).val < 8 := (i 0).isLt
  have h1 : (i 1).val < 1024 := (i 1).isLt
  have h2 : (i 2).val < 4096 := (i 2).isLt
  obtain ⟨t, ht⟩ := out_onto ⟨(i 0).val, h0⟩ ⟨(i 1).val / 512, by omega⟩ ⟨(i 2).val / 2048, by omega⟩
  have q0 : win0_7.index t (0 : Fin 3) = (i 0).val := congrFun ht 0
  have q1 : win0_7.index t (1 : Fin 3) = (i 1).val / 512 := congrFun ht 1
  have q2 : win0_7.index t (2 : Fin 3) = (i 2).val / 2048 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 2048 ≤ (i 2).val ∧ (i 2).val < win0_7.index t (2 : Fin 3) * 2048 + 2048; omega

/-- THE ARRAY AFTER THE CALL is the hidden activation of the arrays it was entered with. -/
theorem final (c : Dev nD) : (dat0 V c).arrAt 7 cfg0.N = hiddenArr V c :=
  (dat0 V c).arrAt_eq_of_cover 7 (hiddenArr V c) (fun t _ => flushed_eq V c t) cover

end Cert.KernelIdeal.GateUp

end
-- ==== Proof.Down.lean ====
/-
  The second pallas_call's output array: every grid point (e, ti, di) writes the 512 × 1024 block of rows ti·512 …
  and columns di·1024 … of group e, and what it writes there is the corrected linear map lin(h; Wd, Ad, Bd) of the
  arrays the call was entered with (h: group e, rows of ti, the whole hidden axis; the dense weight and the second
  rank factor: group e, columns of di; the first rank factor: the whole slab of the group).
  The 8 · 2 · 2 blocks tile the 8 × 1024 × 2048 array, so the array ends as that map everywhere.
-/
import proofs.«113961_j42949673290_1_alg».proof.Proof.Gen.KernelIdeal.Frame
import proofs.«113961_j42949673290_1_alg».proof.Proof.Body
import Idealize.ShloMosaic.Lib.Pipeline.Value

set_option maxRecDepth 16384

noncomputable section

namespace Cert.KernelIdeal.Down

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LoraMlp Cert.LibMatmul

variable (V : (c : Dev nD) → (b : Ref sig .tc) → Buf (Elt Ideal) ((c : Thread nD τ).loc b))

/-! ## The arrays the call is entered with, at their literal shapes -/

abbrev aH (c : Dev nD) : Arr3 8 1024 4096 := V c main_v11
abbrev aWd (c : Dev nD) : Arr3 8 4096 2048 := V c main_v4
abbrev aAd (c : Dev nD) : Arr3 8 4096 16 := V c main_v9
abbrev aBd (c : Dev nD) : Arr3 8 16 2048 := V c main_v10

/-- The corrected linear map of those arrays. -/
def downArr (c : Dev nD) : Arr3 8 1024 2048 := lora (aH V c) (aWd V c) (aAd V c) (aBd V c)

/-! ## The index maps over the grid -/

theorem hz3 : (![0, 0, 0] : Fin 3 → Nat) = fun _ => 0 := funext fun a => by fin_cases a <;> rfl

/-- The output block of point t is (group, row block, column block) within 8 × 2 × 2. -/
theorem out_range : ∀ t : Fin cfg1.N, win1_4.index t (0 : Fin 3) ≤ 7 ∧ win1_4.index t (1 : Fin 3) ≤ 1 ∧ win1_4.index t (2 : Fin 3) ≤ 1 :=
  (by decide +kernel : ∀ t : Fin grid1.N, _)
/-- The hidden array's block: same group and row block, the hidden axis whole. -/
theorem in0 : ∀ t : Fin cfg1.N, win1_0.index t (0 : Fin 3) = win1_4.index t (0 : Fin 3) ∧ win1_0.index t (1 : Fin 3) = win1_4.index t (1 : Fin 3) ∧ win1_0.index t (2 : Fin 3) = 0 :=
  (by decide +kernel : ∀ t : Fin grid1.N, _)
/-- The dense weight's block: same group and column block, the hidden axis whole. -/
theorem in1 : ∀ t : Fin cfg1.N, win1_1.index t (0 : Fin 3) = win1_4.index t (0 : Fin 3) ∧ win1_1.index t (1 : Fin 3) = 0 ∧ win1_1.index t (2 : Fin 3) = win1_4.index t (2 : Fin 3) :=
  (by decide +kernel : ∀ t : Fin grid1.N, _)
/-- The first rank factor's block: the whole slab of the group. -/
theorem in2 : ∀ t : Fin cfg1.N, win1_2.index t (0 : Fin 3) = win1_4.index t (0 : Fin 3) ∧ win1_2.index t (1 : Fin 3) = 0 ∧ win1_2.index t (2 : Fin 3) = 0 :=
  (by decide +kernel : ∀ t : Fin grid1.N, _)
/-- The second rank factor's block: same group and column block, the rank axis whole. -/
theorem in3 : ∀ t : Fin cfg1.N, win1_3.index t (0 : Fin 3) = win1_4.index t (0 : Fin 3) ∧ win1_3.index t (1 : Fin 3) = 0 ∧ win1_3.index t (2 : Fin 3) = win1_4.index t (2 : Fin 3) :=
  (by decide +kernel : ∀ t : Fin grid1.N, _)
/-- Every (group, row block, column block) is some point's. -/
theorem out_onto : ∀ (q0 : Fin 8) (q1 : Fin 2) (q2 : Fin 2), ∃ t : Fin cfg1.N, win1_4.index t = ![q0.val, q1.val, q2.val] :=
  (by decide +kernel : ∀ (q0 : Fin 8) (q1 : Fin 2) (q2 : Fin 2), ∃ t : Fin grid1.N, win1_4.index t = ![q0.val, q1.val, q2.val])

/-- The group, the row and the column of the array that point t's block entry (p, q) is. -/
def grp (t : Fin cfg1.N) : Fin 8 := ⟨win1_4.index t (0 : Fin 3), by have := (out_range t).1; omega⟩
def rowOf (t : Fin cfg1.N) (p : Fin 512) : Fin 1024 := ⟨win1_4.index t (1 : Fin 3) * 512 + p.val, by have := (out_range t).2.1; omega⟩
def colOf (t : Fin cfg1.N) (q : Fin 1024) : Fin 2048 := ⟨win1_4.index t (2 : Fin 3) * 1024 + q.val, by have := (out_range t).2.2; omega⟩

/-! ## The body at one entry -/

/-- What the body leaves at entry (0, p, q) of its output block is the corrected linear map of its input blocks. -/
theorem body_eq (x0 : Vec Ideal S1x512x4096 .bf16) (x1 : Vec Ideal S1x4096x1024 .bf16) (x2 : Vec Ideal S1x4096x16 .bf16)
    (x3 : Vec Ideal S1x16x1024 .bf16) (p : Fin 512) (q : Fin 1024) :
    out1_4 (F := Ideal) x0 x1 x2 x3 (ix3 0 p q) = loraAt x0 x1 x2 x3 0 p q := by
  unfold out1_4
  rw [View.canon_unit_zero hz3]
  simp only [View.ld_unit_zero (S := S1x512x4096) hz3, View.ld_unit_zero (S := S1x4096x1024) hz3,
    View.ld_unit_zero (S := S1x4096x16) hz3, View.ld_unit_zero (S := S1x16x1024) hz3]
  unfold k1_pay1
  rw [shapeCast_add1,
    lora_body ⟨rfl, rfl, rfl, rfl, rfl, rfl⟩ ⟨rfl, rfl, rfl, rfl, rfl, rfl⟩ ⟨rfl, rfl, rfl, rfl, rfl, rfl⟩]

/-! ## Each input block is a slab of its array -/

theorem rd0 (c : Dev nD) (t : Fin cfg1.N) (p : Fin 512) (k : Fin 4096) :
    (iblk1 V c 0 t : Vec Ideal S1x512x4096 .bf16) (ix3 0 p k) = aH V c (ix3 (grp t) (rowOf t p) k) := by
  obtain ⟨e0, e1, e2⟩ := in0 t
  show V c main_v11 (((cfg1.win 0).blk t).view.emb (ix3 0 p k)) = V c main_v11 (ix3 (grp t) (rowOf t p) k)
  refine congrArg _ (funext fun a => Fin.ext ?_)
  match a with
  | ⟨0, _⟩ => show win1_0.index t (0 : Fin 3) * 1 + 1 * 0 = win1_4.index t (0 : Fin 3); omega
  | ⟨1, _⟩ => show win1_0.index t (1 : Fin 3) * 512 + 1 * p.val = win1_4.index t (1 : Fin 3) * 512 + p.val; omega
  | ⟨2, _⟩ => show win1_0.index t (2 : Fin 3) * 4096 + 1 * k.val = k.val; omega
theorem rd1 (c : Dev nD) (t : Fin cfg1.N) (k : Fin 4096) (q : Fin 1024) :
    (iblk1 V c 1 t : Vec Ideal S1x4096x1024 .bf16) (ix3 0 k q) = aWd V c (ix3 (grp t) k (colOf t q)) := by
  obtain ⟨e0, e1, e2⟩ := in1 t
  show V c main_v4 (((cfg1.win 1).blk t).view.emb (ix3 0 k q)) = V c main_v4 (ix3 (grp t) k (colOf t q))
  refine congrArg _ (funext fun a => Fin.ext ?_)
  match a with
  | ⟨0, _⟩ => show win1_1.index t (0 : Fin 3) * 1 + 1 * 0 = win1_4.index t (0 : Fin 3); omega
  | ⟨1, _⟩ => show win1_1.index t (1 : Fin 3) * 4096 + 1 * k.val = k.val; omega
  | ⟨2, _⟩ => show win1_1.index t (2 : Fin 3) * 1024 + 1 * q.val = win1_4.index t (2 : Fin 3) * 1024 + q.val; omega
theorem rd2 (c : Dev nD) (t : Fin cfg1.N) (k : Fin 4096) (r : Fin 16) :
    (iblk1 V c 2 t : Vec Ideal S1x4096x16 .bf16) (ix3 0 k r) = aAd V c (ix3 (grp t) k r) := by
  obtain ⟨e0, e1, e2⟩ := in2 t
  show V c main_v9 (((cfg1.win 2).blk t).view.emb (ix3 0 k r)) = V c main_v9 (ix3 (grp t) k r)
  refine congrArg _ (funext fun a => Fin.ext ?_)
  match a with
  | ⟨0, _⟩ => show win1_2.index t (0 : Fin 3) * 1 + 1 * 0 = win1_4.index t (0 : Fin 3); omega
  | ⟨1, _⟩ => show win1_2.index t (1 : Fin 3) * 4096 + 1 * k.val = k.val; omega
  | ⟨2, _⟩ => show win1_2.index t (2 : Fin 3) * 16 + 1 * r.val = r.val; omega
theorem rd3 (c : Dev nD) (t : Fin cfg1.N) (r : Fin 16) (q : Fin 1024) :
    (iblk1 V c 3 t : Vec Ideal S1x16x1024 .bf16) (ix3 0 r q) = aBd V c (ix3 (grp t) r (colOf t q)) := by
  obtain ⟨e0, e1, e2⟩ := in3 t
  show V c main_v10 (((cfg1.win 3).blk t).view.emb (ix3 0 r q)) = V c main_v10 (ix3 (grp t) r (colOf t q))
  refine congrArg _ (funext fun a => Fin.ext ?_)
  match a with
  | ⟨0, _⟩ => show win1_3.index t (0 : Fin 3) * 1 + 1 * 0 = win1_4.index t (0 : Fin 3); omega
  | ⟨1, _⟩ => show win1_3.index t (1 : Fin 3) * 16 + 1 * r.val = r.val; omega
  | ⟨2, _⟩ => show win1_3.index t (2 : Fin 3) * 1024 + 1 * q.val = win1_4.index t (2 : Fin 3) * 1024 + q.val; omega

/-! ## What a point writes back, the cover, and the array after the call -/

/-- WHAT POINT t WRITES BACK is block t of the corrected linear map of the arrays the call was entered with. -/
theorem flushed_eq (c : Dev nD) (t : Fin cfg1.N) :
    (dat1 V c).flushed 4 t = ((cfg1.win 4).blk t).view.read (Elt Ideal) (downArr V c) := by
  show (cfg1.win 4).cut (grid1.coords t) ((dat1 V c).after 4 t) = _
  rw [after1_4]
  funext j
  obtain ⟨z, p, q, rfl⟩ : ∃ (z : Fin 1) (p : Fin 512) (q : Fin 1024), j = ix3 z p q := ⟨j 0, j 1, j 2, eq_ix3 j⟩
  obtain rfl : z = 0 := Subsingleton.elim _ _
  show out1_4 (iblk1 V c 0 t) (iblk1 V c 1 t) (iblk1 V c 2 t) (iblk1 V c 3 t) (ix3 0 p q)
    = downArr V c (((cfg1.win 4).blk t).view.emb (ix3 0 p q))
  have hemb : ((cfg1.win 4).blk t).view.emb (ix3 0 p q) = ix3 (grp t) (rowOf t p) (colOf t q) := by
    funext a; apply Fin.ext
    match a with
    | ⟨0, _⟩ => show win1_4.index t (0 : Fin 3) * 1 + 1 * 0 = win1_4.index t (0 : Fin 3); omega
    | ⟨1, _⟩ => show win1_4.index t (1 : Fin 3) * 512 + 1 * p.val = win1_4.index t (1 : Fin 3) * 512 + p.val; omega
    | ⟨2, _⟩ => show win1_4.index t (2 : Fin 3) * 1024 + 1 * q.val = win1_4.index t (2 : Fin 3) * 1024 + q.val; omega
  rw [hemb]
  refine (body_eq (iblk1 V c 0 t) (iblk1 V c 1 t) (iblk1 V c 2 t) (iblk1 V c 3 t) p q).trans ?_
  exact loraAt_block (aH V c) (aWd V c) (aAd V c) (aBd V c)
    (iblk1 V c 0 t) (iblk1 V c 1 t) (iblk1 V c 2 t) (iblk1 V c 3 t)
    (grp t) (rowOf t) (colOf t) (rd0 V c t) (rd1 V c t) (rd2 V c t) (rd3 V c t) p q

/-- An index of the array is in point t's block iff each coordinate is in the block's range on its axis. -/
theorem mem_blk (t : Fin cfg1.N) (i : S8x1024x2048.Idx) :
    i ∈ ((cfg1.win 4).blk t).view.set ↔ ∀ a : Fin 3, win1_4.index t a * S1x512x1024.size a ≤ (i a).val ∧ (i a).val < win1_4.index t a * S1x512x1024.size a + S1x512x1024.size a := by
  show i ∈ ((View.whole main_v12).slice (win1_4.rect t)).set ↔ _
  rw [View.set_slice_whole, Rect.mem_set_unit]
  exact Iff.rfl

/-- Every index of the array is in some point's block: the point of its group, row block and column block. -/
theorem cover (i : S8x1024x2048.Idx) : ∃ t : Fin cfg1.N, (cfg1.win 4).flush t = true ∧ i ∈ ((cfg1.win 4).blk t).view.set := by
  have h0 : (i 0).val < 8 := (i 0).isLt
  have h1 : (i 1).val < 1024 := (i 1).isLt
  have h2 : (i 2).val < 2048 := (i 2).isLt
  obtain ⟨t, ht⟩ := out_onto ⟨(i 0).val, h0⟩ ⟨(i 1).val / 512, by omega⟩ ⟨(i 2).val / 1024, by omega⟩
  have q0 : win1_4.index t (0 : Fin 3) = (i 0).val := congrFun ht 0
  have q1 : win1_4.index t (1 : Fin 3) = (i 1).val / 512 := congrFun ht 1
  have q2 : win1_4.index t (2 : Fin 3) = (i 2).val / 1024 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 1024 ≤ (i 2).val ∧ (i 2).val < win1_4.index t (2 : Fin 3) * 1024 + 1024; omega

/-- THE ARRAY AFTER THE CALL is the corrected linear map of the arrays it was entered with. -/
theorem final (c : Dev nD) : (dat1 V c).arrAt 4 cfg1.N = downArr V c :=
  (dat1 V c).arrAt_eq_of_cover 4 (downArr V c) (fun t _ => flushed_eq V c t) cover

end Cert.KernelIdeal.Down

end
-- ==== Proof.Layer.lean ====
/-
  The kernel's program end to end: the first stretch of host operations regroups the input (8192 rows as 8 groups of
  1024) and changes the format of the ten weight arrays, which is the identity on exact values; the first call leaves
  the hidden activation of those arrays in its output; the second call, entered with that array and the three
  remaining weights untouched, leaves the corrected linear map of them; the last host operation flattens the groups
  back to 8192 rows. So the result buffer ends at the specification's layer of the argument arrays.
-/
import proofs.«113961_j42949673290_1_alg».proof.Proof.Gen.KernelIdeal.Frame
import proofs.«113961_j42949673290_1_alg».proof.Proof.RunNamed
import proofs.«113961_j42949673290_1_alg».proof.Proof.GateUp
import proofs.«113961_j42949673290_1_alg».proof.Proof.Down
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.ShloMosaic.ValueIdx
open Idealize.SL Idealize.SL.Sem
open Cert.LoraMlp

variable (m : (ℓ : Loc nD τ sig) → Buf (Elt Ideal) ℓ) (ρ : Dev nD → PrngReg)

/-! ## The arrays the first call is entered with -/

theorem entry_x (c : Dev nD) :
    GateUp.aX (V1 m ρ) c = shapeCast S8x1024x2048 (m ((c : Thread nD τ).loc main_arg0)) shapeCasts_S8192x2048_S8x1024x2048 := by
  show StableHlo.after hostOps0 (W0 m ρ c) (Proc.devRef .tc main_v1) = _
  after_results
  rfl
theorem entry_wg (c : Dev nD) : GateUp.aWg (V1 m ρ) c = m ((c : Thread nD τ).loc main_arg2) := by
  show StableHlo.after hostOps0 (W0 m ρ c) (Proc.devRef .tc main_v2) = _
  after_results
  rfl
theorem entry_wu (c : Dev nD) : GateUp.aWu (V1 m ρ) c = m ((c : Thread nD τ).loc main_arg3) := by
  show StableHlo.after hostOps0 (W0 m ρ c) (Proc.devRef .tc main_v3) = _
  after_results
  rfl
theorem entry_ag (c : Dev nD) : GateUp.aAg (V1 m ρ) c = m ((c : Thread nD τ).loc main_arg5) := by
  show StableHlo.after hostOps0 (W0 m ρ c) (Proc.devRef .tc main_v5) = _
  after_results
  rfl
theorem entry_bg (c : Dev nD) : GateUp.aBg (V1 m ρ) c = m ((c : Thread nD τ).loc main_arg6) := by
  show StableHlo.after hostOps0 (W0 m ρ c) (Proc.devRef .tc main_v6) = _
  after_results
  rfl
theorem entry_au (c : Dev nD) : GateUp.aAu (V1 m ρ) c = m ((c : Thread nD τ).loc main_arg7) := by
  show StableHlo.after hostOps0 (W0 m ρ c) (Proc.devRef .tc main_v7) = _
  after_results
  rfl
theorem entry_bu (c : Dev nD) : GateUp.aBu (V1 m ρ) c = m ((c : Thread nD τ).loc main_arg8) := by
  show StableHlo.after hostOps0 (W0 m ρ c) (Proc.devRef .tc main_v8) = _
  after_results
  rfl

/-! ## The arrays the second call is entered with -/

/-- Its first operand is what the first call left: the hidden activation. -/
theorem entry_h (c : Dev nD) : Down.aH (V2 m ρ) c = GateUp.hiddenArr (V1 m ρ) c :=
  (W2_arr m ρ c 7).trans (GateUp.final (V1 m ρ) c)
/-- The other three the first call did not touch. -/
theorem entry_wd (c : Dev nD) : Down.aWd (V2 m ρ) c = m ((c : Thread nD τ).loc main_arg4) := by
  refine (W2_of_ne m ρ c main_v4 (by decide)).trans ?_
  show StableHlo.after hostOps0 (W0 m ρ c) (Proc.devRef .tc main_v4) = _
  after_results
  rfl
theorem entry_ad (c : Dev nD) : Down.aAd (V2 m ρ) c = m ((c : Thread nD τ).loc main_arg9) := by
  refine (W2_of_ne m ρ c main_v9 (by decide)).trans ?_
  show StableHlo.after hostOps0 (W0 m ρ c) (Proc.devRef .tc main_v9) = _
  after_results
  rfl
theorem entry_bd (c : Dev nD) : Down.aBd (V2 m ρ) c = m ((c : Thread nD τ).loc main_arg10) := by
  refine (W2_of_ne m ρ c main_v10 (by decide)).trans ?_
  show StableHlo.after hostOps0 (W0 m ρ c) (Proc.devRef .tc main_v10) = _
  after_results
  rfl

/-! ## The result -/

/-- The layer of the argument arrays, flattened to rows: what the result buffer ends at. -/
def result (c : Dev nD) : Buf (Elt Ideal) ((c.tc : Thread nD τ).loc main_v13) :=
  shapeCast S8192x2048
    (lora (hidden (shapeCast S8x1024x2048 (m ((c : Thread nD τ).loc main_arg0)) shapeCasts_S8192x2048_S8x1024x2048)
        (m ((c : Thread nD τ).loc main_arg2)) (m ((c : Thread nD τ).loc main_arg5)) (m ((c : Thread nD τ).loc main_arg6))
        (m ((c : Thread nD τ).loc main_arg3)) (m ((c : Thread nD τ).loc main_arg7)) (m ((c : Thread nD τ).loc main_arg8)))
      (m ((c : Thread nD τ).loc main_arg4)) (m ((c : Thread nD τ).loc main_arg9)) (m ((c : Thread nD τ).loc main_arg10)))
    shapeCasts_S8x1024x2048_S8192x2048

/-- The second call's output array is the layer before flattening. -/
theorem down_value (c : Dev nD) :
    W3 m ρ c (Proc.devRef .tc main_v12)
      = lora (hidden (shapeCast S8x1024x2048 (m ((c : Thread nD τ).loc main_arg0)) shapeCasts_S8192x2048_S8x1024x2048)
          (m ((c : Thread nD τ).loc main_arg2)) (m ((c : Thread nD τ).loc main_arg5)) (m ((c : Thread nD τ).loc main_arg6))
          (m ((c : Thread nD τ).loc main_arg3)) (m ((c : Thread nD τ).loc main_arg7)) (m ((c : Thread nD τ).loc main_arg8)))
        (m ((c : Thread nD τ).loc main_arg4)) (m ((c : Thread nD τ).loc main_arg9)) (m ((c : Thread nD τ).loc main_arg10)) := by
  refine (W3_arr m ρ c 4).trans ((Down.final (V2 m ρ) c).trans ?_)
  unfold Down.downArr
  rw [entry_h, entry_wd, entry_ad, entry_bd]
  unfold GateUp.hiddenArr
  rw [entry_x, entry_wg, entry_wu, entry_ag, entry_bg, entry_au, entry_bu]

/-- The last boundary's contents at the result buffer. -/
theorem result_eq (c : Dev nD) : W4 m ρ c (Proc.devRef .tc main_v13) = result m c := by
  show StableHlo.after hostOps2 (W3 m ρ c) (Proc.devRef .tc main_v13) = _
  after_results
  rw [down_value]
  rfl

/-- THE RUN, READ: every weakly fair execution terminates, the result buffer at the layer of the arguments and the
    arguments as launched. -/
theorem run : θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (RunNamed.run_named m ρ)

end Cert.KernelIdeal.Layer

end
-- ==== Proof.lean ====
/-
  A grouped feed-forward layer with low-rank corrections, two pallas_calls against plain jnp.

  For 8 groups of 1024 rows, with x regrouped from 8192 × 2048:
      lin(x; W, A, B) = x·W + 2·((x·A)·B)              (the scale alpha / rank = 32 / 16 = 2)
      hidden          = silu(lin(x; Wg, Ag, Bg)) · lin(x; Wu, Au, Bu),   silu(v) = v · (1 / (1 + e^(-v)))
      out             = lin(hidden; Wd, Ad, Bd),  flattened back to 8192 × 2048.
  The kernel computes hidden in a first call on 512 × 2048 blocks and out in a second on 512 × 1024 blocks, feeding the
  matrix unit narrowed copies of every operand; on exact values a change of format is the identity, a block product
  into a zero accumulator is the plain sum over the inner index, and the blocks of each call tile its output, so each
  output array is the same function of the arrays as the reference's batched products give. The one spelling
  difference is the logistic's negation, 0 - v in the kernel and -v in the reference, equal on every extended real.
  No step uses that the inputs are finite.

  The three frames are the generated ones (the reference's is its generated run with the result dropped); the ideal
  pass rewrote nothing, so the preservation claim is trivial.
-/
import proofs.«113961_j42949673290_1_alg».proof.Defs
import proofs.«113961_j42949673290_1_alg».proof.Proof.Gen.Kernel
import proofs.«113961_j42949673290_1_alg».proof.Proof.Gen.Kernel.Skeleton
import proofs.«113961_j42949673290_1_alg».proof.Proof.Gen.Kernel.Launch
import proofs.«113961_j42949673290_1_alg».proof.Proof.Gen.Kernel.Points
import proofs.«113961_j42949673290_1_alg».proof.Proof.Gen.Kernel.Frame
import proofs.«113961_j42949673290_1_alg».proof.Proof.Gen.KernelIdeal
import proofs.«113961_j42949673290_1_alg».proof.Proof.Gen.KernelIdeal.Skeleton
import proofs.«113961_j42949673290_1_alg».proof.Proof.Gen.KernelIdeal.Launch
import proofs.«113961_j42949673290_1_alg».proof.Proof.Gen.KernelIdeal.Points
import proofs.«113961_j42949673290_1_alg».proof.Proof.Gen.KernelIdeal.Frame
import proofs.«113961_j42949673290_1_alg».proof.Proof.Gen.ReferenceIdeal
import proofs.«113961_j42949673290_1_alg».proof.Proof.Gen.ReferenceIdeal.Run
import proofs.«113961_j42949673290_1_alg».proof.Proof.Gen.ReferenceIdeal.Read
import proofs.«113961_j42949673290_1_alg».proof.Proof.Gen.Pre_finite_inputs
import proofs.«113961_j42949673290_1_alg».proof.Proof.RefValue
import proofs.«113961_j42949673290_1_alg».proof.Proof.Layer
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result buffer at the layer of the argument arrays: the kernel's by its two calls'
    output arrays, the reference's by its operations read one at a time; the arguments agree by hypothesis. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v21_eq, Cert.ReferenceIdeal.RefValue.result_eq, h0, h2, h3, h4, h5, h6, h7, h8, h9, h10]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
